-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128 : Shape := ⟨3, ![8, 512, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S8x512x128 : S_.BroadcastsInDim S8x512x128 (![] : Fin 0 → Fin S8x512x128.rank)
  reducesTo_S8x512x128_S_d0_1_2 : S8x512x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S128x128 .f32) (main_arg6 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x512x128 .f32) (main_arg1 : FVec F S128x128 .f32) (main_arg2 : FVec F S128 .f32) (main_arg3 : FVec F S128x1 .f32) (main_arg4 : FVec F S1 .f32) (main_arg5 : FVec F S128x128 .f32) (main_arg6 : FVec F S128 .f32) : IVec S_ 1 :=
  let main_v0 : FVec F S8x512x128 .f32 := Host.absf main_arg0
  let main_cst : FVec F S_ .f32 := constant S_ .f32 0x7F800000#32
  let main_v1 : FVec F S8x512x128 .f32 := broadcastInDim S8x512x128 ![] bcast_S_S8x512x128 main_cst
  let main_v2 : IVec S8x512x128 1 := cmpf .olt main_v0 main_v1
  let main_c : IVec S_ 1 := constantI S_ 1 1#1
  let main_v3 : IVec S_ 1 := (fun x v => Host.reduce IntOp.andi x v reducesTo_S8x512x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_arg5 main_arg6 main_v13 main_v16
-- ==== Kernel.lean ====
abbrev S8x512x128 : Shape := ⟨3, ![8, 512, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S8x512x512 : Shape := ⟨3, ![8, 512, 512]⟩
abbrev S1x128x128 : Shape := ⟨3, ![1, 128, 128]⟩
abbrev S128x1x128 : Shape := ⟨3, ![128, 1, 128]⟩
abbrev S128x128x128 : Shape := ⟨3, ![128, 128, 128]⟩
abbrev S16384x128 : Shape := ⟨2, ![16384, 128]⟩
abbrev S16384 : Shape := ⟨1, ![16384]⟩
abbrev S_ : Shape := ⟨0, ![]⟩
abbrev S8x512 : Shape := ⟨2, ![8, 512]⟩
abbrev S8x512x1 : Shape := ⟨3, ![8, 512, 1]⟩
abbrev S8x1x512 : Shape := ⟨3, ![8, 1, 512]⟩
abbrev S1x512x128 : Shape := ⟨3, ![1, 512, 128]⟩
abbrev S512x128 : Shape := ⟨2, ![512, 128]⟩
abbrev S1x128x512 : Shape := ⟨3, ![1, 128, 512]⟩
abbrev S1x128x1 : Shape := ⟨3, ![1, 128, 1]⟩
abbrev S1x1x512 : Shape := ⟨3, ![1, 1, 512]⟩
abbrev S128x512 : Shape := ⟨2, ![128, 512]⟩
abbrev S1x512 : Shape := ⟨2, ![1, 512]⟩

abbrev nBuf : Space → Nat
  | .hbm => 19
  | .vmem => 26
  | .smem => 0
  | _ => 0

abbrev bufTy : (tb : Table) → Fin (tcTables nBuf tb) → BufTy
  | .hbm, ⟨0, _⟩ => ⟨S8x512x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S1x1, .f32⟩
  | .hbm, ⟨10, _⟩ => ⟨S1x128, .f32⟩
  | .hbm, ⟨11, _⟩ => ⟨S8x512x512, .f32⟩
  | .hbm, ⟨12, _⟩ => ⟨S_, .f32⟩
  | .hbm, ⟨13, _⟩ => ⟨S8x512, .f32⟩
  | .hbm, ⟨14, _⟩ => ⟨S8x512, .f32⟩
  | .hbm, ⟨15, _⟩ => ⟨S8x512x1, .f32⟩
  | .hbm, ⟨16, _⟩ => ⟨S8x1x512, .f32⟩
  | .hbm, ⟨17, _⟩ => ⟨S8x512x128, .f32⟩
  | .hbm, ⟨18, _⟩ => ⟨S8x512x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S1x128x128, .f32⟩
  | .local _ .vmem, ⟨9, _⟩ => ⟨S1x128x128, .f32⟩
  | .local _ .vmem, ⟨10, _⟩ => ⟨S1x512x128, .f32⟩
  | .local _ .vmem, ⟨11, _⟩ => ⟨S1x512x128, .f32⟩
  | .local _ .vmem, ⟨12, _⟩ => ⟨S128x128, .f32⟩
  | .local _ .vmem, ⟨13, _⟩ => ⟨S1x512x128, .f32⟩
  | .local _ .vmem, ⟨14, _⟩ => ⟨S1x512x128, .f32⟩
  | .local _ .vmem, ⟨15, _⟩ => ⟨S1x128x512, .f32⟩
  | .local _ .vmem, ⟨16, _⟩ => ⟨S1x128x512, .f32⟩
  | .local _ .vmem, ⟨17, _⟩ => ⟨S1x128x1, .f32⟩
  | .local _ .vmem, ⟨18, _⟩ => ⟨S1x128x1, .f32⟩
  | .local _ .vmem, ⟨19, _⟩ => ⟨S1x1x512, .f32⟩
  | .local _ .vmem, ⟨20, _⟩ => ⟨S1x1x512, .f32⟩
  | .local _ .vmem, ⟨21, _⟩ => ⟨S1x512x128, .f32⟩
  | .local _ .vmem, ⟨22, _⟩ => ⟨S1x512x128, .f32⟩
  | .local _ .vmem, ⟨23, _⟩ => ⟨S1x128, .f32⟩
  | .local _ .vmem, ⟨24, _⟩ => ⟨S1x128x128, .f32⟩
  | .local _ .vmem, ⟨25, _⟩ => ⟨S1x128x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x128x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  shapeCasts_S128_S1x128 : S128.ShapeCasts S1x128
  shapeCasts_S128x1_S1x128 : S128x1.ShapeCasts S1x128
  shapeCasts_S1_S1x1 : S1.ShapeCasts S1x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  bitsLt_bf16_f32 : FTy.bits .bf16 < FTy.bits .f32
  shapeCasts_S128x128x128_S16384x128 : S128x128x128.ShapeCasts S16384x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  reduces_S16384x128_S16384 : S16384x128.Reduces [1] S16384
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S16384_S128x128 : S16384.ShapeCasts S128x128
  reducesTo_S8x512x512_S8x512_d2 : S8x512x512.ReducesTo [2] S8x512
  h_S_ : 0 < S_.numel
  bcast_S8x512_S8x512x1_0_1 : S8x512.BroadcastsInDim S8x512x1 (![0, 1] : Fin 2 → Fin S8x512x1.rank)
  bcast_S8x512_S8x1x512_0_2 : S8x512.BroadcastsInDim S8x1x512 (![0, 2] : Fin 2 → Fin S8x1x512.rank)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S128x1_S128x512 : S128x1.Broadcasts S128x512
  broadcasts_S1x512_S128x512 : S1x512.Broadcasts S128x512
  broadcasts_S1x128_S128x128 : S1x128.Broadcasts S128x128
  dot_S16384x128_S128x128_S16384x128_1_0_0_1_n_n_wf : DotDims.WF S16384x128 S128x128 S16384x128 [1] [0] [0] [1] [] []
  dot_S512x128_S128x128_S512x128_1_0_0_1_n_n_wf : DotDims.WF S512x128 S128x128 S512x128 [1] [0] [0] [1] [] []
  dot_S128x512_S512x128_S128x128_1_0_0_1_n_n_wf : DotDims.WF S128x512 S512x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S8x512x128.size a
  hwx0_0 : ∀ i : grid0.Coords, EltTy.bits .f32 = 32 ∨ (Rect.block (s := S8x512x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x512x128.size a
  hwx0_1 : ∀ i : grid0.Coords, EltTy.bits .f32 = 32 ∨ (Rect.block (s := S8x512x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x128.size a ≤ S8x512x512.size a
  hwx0_6 : ∀ i : grid0.Coords, EltTy.bits .f32 = 32 ∨ (Rect.block (s := S8x512x512) S1x128x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S8x512x128.size a
  hwx1_0 : ∀ i : grid1.Coords, EltTy.bits .f32 = 32 ∨ (Rect.block (s := S8x512x128) S1x512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S8x512x128.size a
  hwx1_2 : ∀ i : grid1.Coords, EltTy.bits .f32 = 32 ∨ (Rect.block (s := S8x512x128) S1x512x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x512.size a ≤ S8x512x512.size a
  hwx2_0 : ∀ i : grid2.Coords, EltTy.bits .f32 = 32 ∨ (Rect.block (s := S8x512x512) S1x128x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x1.size a ≤ S8x512x1.size a
  hwx2_1 : ∀ i : grid2.Coords, EltTy.bits .f32 = 32 ∨ (Rect.block (s := S8x512x1) S1x128x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x512.size a ≤ S8x1x512.size a
  hwx2_2 : ∀ i : grid2.Coords, EltTy.bits .f32 = 32 ∨ (Rect.block (s := S8x1x512) S1x1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x128.size a ≤ S8x512x128.size a
  hwx2_3 : ∀ i : grid2.Coords, EltTy.bits .f32 = 32 ∨ (Rect.block (s := S8x512x128) S1x512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x128x128.size a ≤ S8x512x128.size a
  hwx2_5 : ∀ i : grid2.Coords, EltTy.bits .f32 = 32 ∨ (Rect.block (s := S8x512x128) S1x128x128.size (cc2_transform_5 i) (hinb2_5 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S1x128x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x128x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x128x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x512x128 : Shape := ⟨3, ![8, 512, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S8x512x1x128 : Shape := ⟨4, ![8, 512, 1, 128]⟩
abbrev S8x1x512x128 : Shape := ⟨4, ![8, 1, 512, 128]⟩
abbrev S8x512x512x128 : Shape := ⟨4, ![8, 512, 512, 128]⟩
abbrev S1x1x1x128 : Shape := ⟨4, ![1, 1, 1, 128]⟩
abbrev S_ : Shape := ⟨0, ![]⟩
abbrev S8x512x512x1 : Shape := ⟨4, ![8, 512, 512, 1]⟩
abbrev S8x512x512 : Shape := ⟨3, ![8, 512, 512]⟩
abbrev S8x512 : Shape := ⟨2, ![8, 512]⟩
abbrev S8x512x1 : Shape := ⟨3, ![8, 512, 1]⟩
abbrev S8x1x512 : Shape := ⟨3, ![8, 1, 512]⟩
abbrev S1x1x128 : Shape := ⟨3, ![1, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S8x512x1x128, .f32⟩
  | .hbm, ⟨8, _⟩ => ⟨S8x1x512x128, .f32⟩
  | .hbm, ⟨9, _⟩ => ⟨S8x512x512x128, .f32⟩
  | .hbm, ⟨10, _⟩ => ⟨S8x512x512x128, .f32⟩
  | .hbm, ⟨11, _⟩ => ⟨S8x512x512x128, .f32⟩
  | .hbm, ⟨12, _⟩ => ⟨S8x512x512x128, .f32⟩
  | .hbm, ⟨13, _⟩ => ⟨S8x512x512x128, .f32⟩
  | .hbm, ⟨14, _⟩ => ⟨S1x1x1x128, .f32⟩
  | .hbm, ⟨15, _⟩ => ⟨S8x512x512x128, .f32⟩
  | .hbm, ⟨16, _⟩ => ⟨S8x512x512x128, .f32⟩
  | .hbm, ⟨17, _⟩ => ⟨S_, .f32⟩
  | .hbm, ⟨18, _⟩ => ⟨S8x512x512x128, .f32⟩
  | .hbm, ⟨19, _⟩ => ⟨S8x512x512x128, .f32⟩
  | .hbm, ⟨20, _⟩ => ⟨S8x512x512x1, .f32⟩
  | .hbm, ⟨21, _⟩ => ⟨S8x512x512, .f32⟩
  | .hbm, ⟨22, _⟩ => ⟨S_, .f32⟩
  | .hbm, ⟨23, _⟩ => ⟨S8x512x512, .f32⟩
  | .hbm, ⟨24, _⟩ => ⟨S8x512x512, .f32⟩
  | .hbm, ⟨25, _⟩ => ⟨S8x512x512, .f32⟩
  | .hbm, ⟨26, _⟩ => ⟨S8x512x512, .f32⟩
  | .hbm, ⟨27, _⟩ => ⟨S_, .f32⟩
  | .hbm, ⟨28, _⟩ => ⟨S8x512x512, .f32⟩
  | .hbm, ⟨29, _⟩ => ⟨S8x512x512, .f32⟩
  | .hbm, ⟨30, _⟩ => ⟨S_, .f32⟩
  | .hbm, ⟨31, _⟩ => ⟨S8x512x512, .f32⟩
  | .hbm, ⟨32, _⟩ => ⟨S8x512x512, .f32⟩
  | .hbm, ⟨33, _⟩ => ⟨S_, .f32⟩
  | .hbm, ⟨34, _⟩ => ⟨S8x512, .f32⟩
  | .hbm, ⟨35, _⟩ => ⟨S8x512, .f32⟩
  | .hbm, ⟨36, _⟩ => ⟨S8x512x1, .f32⟩
  | .hbm, ⟨37, _⟩ => ⟨S8x512x512, .f32⟩
  | .hbm, ⟨38, _⟩ => ⟨S8x512x512, .f32⟩
  | .hbm, ⟨39, _⟩ => ⟨S8x1x512, .f32⟩
  | .hbm, ⟨40, _⟩ => ⟨S8x512x512, .f32⟩
  | .hbm, ⟨41, _⟩ => ⟨S8x512x512, .f32⟩
  | .hbm, ⟨42, _⟩ => ⟨S8x512x128, .f32⟩
  | .hbm, ⟨43, _⟩ => ⟨S8x512x128, .f32⟩
  | .hbm, ⟨44, _⟩ => ⟨S1x1x128, .f32⟩
  | .hbm, ⟨45, _⟩ => ⟨S8x512x128, .f32⟩
  | .hbm, ⟨46, _⟩ => ⟨S8x512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S8x512x128_S8x512x1x128_0_1_3 : S8x512x128.BroadcastsInDim S8x512x1x128 (![0, 1, 3] : Fin 3 → Fin S8x512x1x128.rank)
  bcast_S8x512x128_S8x1x512x128_0_2_3 : S8x512x128.BroadcastsInDim S8x1x512x128 (![0, 2, 3] : Fin 3 → Fin S8x1x512x128.rank)
  bcast_S8x512x1x128_S8x512x512x128_0_1_2_3 : S8x512x1x128.BroadcastsInDim S8x512x512x128 (![0, 1, 2, 3] : Fin 4 → Fin S8x512x512x128.rank)
  bcast_S8x1x512x128_S8x512x512x128_0_1_2_3 : S8x1x512x128.BroadcastsInDim S8x512x512x128 (![0, 1, 2, 3] : Fin 4 → Fin S8x512x512x128.rank)
  bcast_S128_S1x1x1x128_3 : S128.BroadcastsInDim S1x1x1x128 (![3] : Fin 1 → Fin S1x1x1x128.rank)
  bcast_S1x1x1x128_S8x512x512x128_0_1_2_3 : S1x1x1x128.BroadcastsInDim S8x512x512x128 (![0, 1, 2, 3] : Fin 4 → Fin S8x512x512x128.rank)
  bcast_S_S8x512x512x128 : S_.BroadcastsInDim S8x512x512x128 (![] : Fin 0 → Fin S8x512x512x128.rank)
  shapeCasts_S8x512x512x1_S8x512x512 : S8x512x512x1.ShapeCasts S8x512x512
  shapeCasts_S1_S_ : S1.ShapeCasts S_
  bcast_S_S8x512x512 : S_.BroadcastsInDim S8x512x512 (![] : Fin 0 → Fin S8x512x512.rank)
  reducesTo_S8x512x512_S8x512_d2 : S8x512x512.ReducesTo [2] S8x512
  h_S_ : 0 < S_.numel
  bcast_S8x512_S8x512x1_0_1 : S8x512.BroadcastsInDim S8x512x1 (![0, 1] : Fin 2 → Fin S8x512x1.rank)
  bcast_S8x512x1_S8x512x512_0_1_2 : S8x512x1.BroadcastsInDim S8x512x512 (![0, 1, 2] : Fin 3 → Fin S8x512x512.rank)
  bcast_S8x512_S8x1x512_0_2 : S8x512.BroadcastsInDim S8x1x512 (![0, 2] : Fin 2 → Fin S8x1x512.rank)
  bcast_S8x1x512_S8x512x512_0_1_2 : S8x1x512.BroadcastsInDim S8x512x512 (![0, 1, 2] : Fin 3 → Fin S8x512x512.rank)
  bcast_S128_S1x1x128_2 : S128.BroadcastsInDim S1x1x128 (![2] : Fin 1 → Fin S1x1x128.rank)
  bcast_S1x1x128_S8x512x128_0_1_2 : S1x1x128.BroadcastsInDim S8x512x128 (![0, 1, 2] : Fin 3 → Fin S8x512x128.rank)
  dot_S8x512x512x128_S128x128_S8x512x512x128_3_0_012_1_n_n_wf : DotDims.WF S8x512x512x128 S128x128 S8x512x512x128 [3] [0] [0, 1, 2] [1] [] []
  dot_S8x512x512x128_S128x1_S8x512x512x1_3_0_012_1_n_n_wf : DotDims.WF S8x512x512x128 S128x1 S8x512x512x1 [3] [0] [0, 1, 2] [1] [] []
  dot_S8x512x128_S128x128_S8x512x128_2_0_01_1_n_n_wf : DotDims.WF S8x512x128 S128x128 S8x512x128 [2] [0] [0, 1] [1] [] []
  dot_S8x512x512_S8x512x128_S8x512x128_2_1_1_2_0_0_wf : DotDims.WF S8x512x512 S8x512x128 S8x512x128 [2] [1] [1] [2] [0] [0]

variable [Facts₀]

def dot_S8x512x512x128_S128x128_S8x512x512x128_3_0_012_1_n_n : DotDims S8x512x512x128 S128x128 S8x512x512x128 where
  lhsContracting := [3]
  rhsContracting := [0]
  lhsNonContracting := [0, 1, 2]
  rhsNonContracting := [1]
  lhsBatch := []
  rhsBatch := []
  wf := dot_S8x512x512x128_S128x128_S8x512x512x128_3_0_012_1_n_n_wf
def dot_S8x512x512x128_S128x1_S8x512x512x1_3_0_012_1_n_n : DotDims S8x512x512x128 S128x1 S8x512x512x1 where
  lhsContracting := [3]
  rhsContracting := [0]
  lhsNonContracting := [0, 1, 2]
  rhsNonContracting := [1]
  lhsBatch := []
  rhsBatch := []
  wf := dot_S8x512x512x128_S128x1_S8x512x512x1_3_0_012_1_n_n_wf
def dot_S8x512x128_S128x128_S8x512x128_2_0_01_1_n_n : DotDims S8x512x128 S128x128 S8x512x128 where
  lhsContracting := [2]
  rhsContracting := [0]
  lhsNonContracting := [0, 1]
  rhsNonContracting := [1]
  lhsBatch := []
  rhsBatch := []
  wf := dot_S8x512x128_S128x128_S8x512x128_2_0_01_1_n_n_wf
def dot_S8x512x512_S8x512x128_S8x512x128_2_1_1_2_0_0 : DotDims S8x512x512 S8x512x128 S8x512x128 where
  lhsContracting := [2]
  rhsContracting := [1]
  lhsNonContracting := [1]
  rhsNonContracting := [2]
  lhsBatch := [0]
  rhsBatch := [0]
  wf := dot_S8x512x512_S8x512x128_S8x512x128_2_1_1_2_0_0_wf

class Facts : Prop extends Facts₀ where

variable [Facts]
-- ==== Proof.K.Body0.lean ====
/-
  The first pallas_call: at grid point (b, i, j) the body takes rows i·128… and rows j·128… of batch b of the node
  features (two windows onto the SAME array), the first layer's weight and bias row, the second layer's weight row
  and the scalar bias; for every pair of a row of the first block and a row of the second it forms the absolute
  difference, applies the first layer with a rectifier, contracts with the second layer's row, adds the scalar and
  applies the logistic function, and stores the 128×128 block of scores whole. This module states, at any contents
  V of the core's buffers at the region's entry, each window's block at a point, what the body leaves in the output
  window's buffer, the body's triple, the pipeline's proof data — the two windows onto the shared array holding the
  two halves of its full share — and the body obligation at every point.
-/
import proofs.«116299_j17961553231914_1_alg».proof.Proof.Gen.Kernel.Launch
import proofs.«116299_j17961553231914_1_alg».proof.Proof.Gen.Kernel.Skeleton
import proofs.«116299_j17961553231914_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first row block's buffer holds rows (b, i) at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second row block's buffer holds rows (b, j) at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first layer's weight is in its buffer at every point (fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The first layer's bias row is in its buffer at every point (fetched once). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The second layer's weight row is in its buffer at every point (fetched once). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The scalar bias is in its buffer at every point (fetched once). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev rRows : Rect S1x128x128 := Rect.unit (s := S1x128x128) ![0, 0, 0] S1x128x128.size inb_S1x128x128_S1x128x128_0_0_0
abbrev rW1 : Rect S128x128 := Rect.unit (s := S128x128) ![0, 0] S128x128.size inb_S128x128_S128x128_0_0
abbrev rRow128 : Rect S1x128 := Rect.unit (s := S1x128) ![0, 0] S1x128.size inb_S1x128_S1x128_0_0
abbrev rOne : Rect S1x1 := Rect.unit (s := S1x1) ![0, 0] S1x1.size inb_S1x1_S1x1_0_0

/-- What the body leaves in the output window's buffer: the score payload of the six loaded blocks, stored whole. -/
def out0_6 (x0 x1 : Vec F S1x128x128 .f32) (x2 : Vec F S128x128 .f32) (x3 x4 : Vec F S1x128 .f32) (x5 : Vec F S1x1 .f32) : Vec F S1x128x128 .f32 :=
  View.canon [⟨rRows, k0_pay1 (View.ld x0 rRows) (View.ld x1 rRows) (View.ld x2 rW1) (View.ld x3 rRow128) (View.ld x4 rRow128) (View.ld x5 rOne)⟩]

theorem cover0_6 (p0 : Vec F S1x128x128 .f32) (y : S1x128x128.Idx) :
    ∃ pc ∈ ([⟨rRows, p0⟩] : List (View.Piece (Elt F) S1x128x128 .f32)), y ∈ pc.1.set :=
  View.cover_of_tiled [⟨rRows, p0⟩] S1x128x128.size (by rfl) y

set_option maxHeartbeats 1000000 in
/-- The body on whole staging memrefs: the inputs stay, the output ends at `out0_6` of the inputs. -/
theorem sound_kernel0 (c : Dev nD) (E : Set ℕ) (i : grid0.Coords)
    (arg3 : Memref sig .tc .vmem S1x128x128 .f32) (harg3 : arg3.IsWhole) (arg4 : Memref sig .tc .vmem S1x128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x1 .f32) (harg8 : arg8.IsWhole)
    (arg9 : Memref sig .tc .vmem S1x128x128 .f32) (harg9 : arg9.IsWhole)
    (x0 x1 : Vec F S1x128x128 .f32) (x2 : Vec F S128x128 .f32) (x3 x4 : Vec F S1x128 .f32) (x5 : Vec F S1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (out0_6 x0 x1 x2 x3 x4 x5)) -∗ K ⟨⟩))
      ⊢ wp frame (wpE (defs₀ (F := F)) Variants.none c none) E
          (cc0__adj_kernel i arg3 harg3 arg4 harg4 arg5 harg5 arg6 harg6 arg7 harg7 arg8 harg8 arg9 harg9) K := by
  simp only [cc0__adj_kernel_eq_skeleton]; unfold cc0__adj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of the first pipeline: arrays as found, inputs' buffers at their blocks, the output's at the scores;
    the two windows onto the node features hold the left and the right half of that array's full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Body1.lean ====
/-
  The second pallas_call: per batch b, one grid point multiplies the whole 512×128 slab x[b] by the 128×128
  weight and writes the 512×128 product slab. This module states, at any contents V of the core's buffers when the
  region is entered, what each window's block is at a grid point, what the kernel body leaves in the output
  window's buffer (one whole-block store of the product of the two loaded blocks), the body's triple, the
  pipeline's proof data, and the body obligation at every point.
-/
import proofs.«116299_j17961553231914_1_alg».proof.Proof.Gen.Kernel.Launch
import proofs.«116299_j17961553231914_1_alg».proof.Proof.Gen.Kernel.Skeleton
import proofs.«116299_j17961553231914_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The slab window's current buffer holds slab b at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's buffer holds the whole weight at every point (fetched once, its index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rSlab : Rect S1x512x128 := Rect.unit (s := S1x512x128) ![0, 0, 0] S1x512x128.size inb_S1x512x128_S1x512x128_0_0_0
abbrev rWt : Rect S128x128 := Rect.unit (s := S128x128) ![0, 0] S128x128.size inb_S128x128_S128x128_0_0

/-- What the body leaves in the output window's buffer: the product payload of the two loaded blocks, stored whole. -/
def out1_2 (x0 : Vec F S1x512x128 .f32) (x1 : Vec F S128x128 .f32) : Vec F S1x512x128 .f32 :=
  View.canon [⟨rSlab, k1_pay1 (View.ld x0 rSlab) (View.ld x1 rWt)⟩]

theorem cover1_2 (p0 : Vec F S1x512x128 .f32) (y : S1x512x128.Idx) :
    ∃ pc ∈ ([⟨rSlab, p0⟩] : List (View.Piece (Elt F) S1x512x128 .f32)), y ∈ pc.1.set :=
  View.cover_of_tiled [⟨rSlab, p0⟩] S1x512x128.size (by rfl) y

set_option maxHeartbeats 1000000 in
/-- The body on whole staging memrefs: the inputs stay, the output ends at `out1_2` of the inputs. -/
theorem sound_kernel1 (c : Dev nD) (E : Set ℕ) (i : grid1.Coords) (arg1 : Memref sig .tc .vmem S1x512x128 .f32) (harg1 : arg1.IsWhole)
    (arg2 : Memref sig .tc .vmem S128x128 .f32) (harg2 : arg2.IsWhole) (arg3 : Memref sig .tc .vmem S1x512x128 .f32) (harg3 : arg3.IsWhole)
    (x0 : Vec F S1x512x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__xw_kernel i arg1 harg1 arg2 harg2 arg3 harg3) K := by
  simp only [cc1__xw_kernel_eq_skeleton]; unfold cc1__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline: arrays as found, inputs' buffers at their blocks, the output's at the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Body2.lean ====
/-
  The third pallas_call: at grid point (b, i) the body takes a 128×512 strip of the adjacency, the 128 row factors
  and the 512 column factors of the inverse square-root degree, the 512×128 slab of projected features and the bias
  row; it scales the strip by row and by column factor, multiplies by the slab and adds the bias, and stores the
  128×128 result block whole. This module states, at any contents V of the core's buffers at the region's entry,
  each window's block at a point, what the body leaves in the output window's buffer, the body's triple, the
  pipeline's proof data and the body obligation at every point.
-/
import proofs.«116299_j17961553231914_1_alg».proof.Proof.Gen.Kernel.Launch
import proofs.«116299_j17961553231914_1_alg».proof.Proof.Gen.Kernel.Skeleton
import proofs.«116299_j17961553231914_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency strip's buffer holds strip (b, i) at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row factors' buffer holds rows (b, i) at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The column factors' buffer holds batch b's factors at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The feature slab's buffer holds batch b's slab at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The bias row's buffer holds the bias at every point (fetched once). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev rStrip : Rect S1x128x512 := Rect.unit (s := S1x128x512) ![0, 0, 0] S1x128x512.size inb_S1x128x512_S1x128x512_0_0_0
abbrev rRowF : Rect S1x128x1 := Rect.unit (s := S1x128x1) ![0, 0, 0] S1x128x1.size inb_S1x128x1_S1x128x1_0_0_0
abbrev rColF : Rect S1x1x512 := Rect.unit (s := S1x1x512) ![0, 0, 0] S1x1x512.size inb_S1x1x512_S1x1x512_0_0_0
abbrev rFeat : Rect S1x512x128 := Rect.unit (s := S1x512x128) ![0, 0, 0] S1x512x128.size inb_S1x512x128_S1x512x128_0_0_0
abbrev rBias : Rect S1x128 := Rect.unit (s := S1x128) ![0, 0] S1x128.size inb_S1x128_S1x128_0_0
abbrev rOutB : Rect S1x128x128 := Rect.unit (s := S1x128x128) ![0, 0, 0] S1x128x128.size inb_S1x128x128_S1x128x128_0_0_0

/-- What the body leaves in the output window's buffer: the aggregation payload of the five loaded blocks, stored whole. -/
def out2_5 (x0 : Vec F S1x128x512 .f32) (x1 : Vec F S1x128x1 .f32) (x2 : Vec F S1x1x512 .f32) (x3 : Vec F S1x512x128 .f32) (x4 : Vec F S1x128 .f32) : Vec F S1x128x128 .f32 :=
  View.canon [⟨rOutB, k2_pay1 (View.ld x0 rStrip) (View.ld x1 rRowF) (View.ld x2 rColF) (View.ld x3 rFeat) (View.ld x4 rBias)⟩]

theorem cover2_5 (p0 : Vec F S1x128x128 .f32) (y : S1x128x128.Idx) :
    ∃ pc ∈ ([⟨rOutB, p0⟩] : List (View.Piece (Elt F) S1x128x128 .f32)), y ∈ pc.1.set :=
  View.cover_of_tiled [⟨rOutB, p0⟩] S1x128x128.size (by rfl) y

set_option maxHeartbeats 1000000 in
/-- The body on whole staging memrefs: the inputs stay, the output ends at `out2_5` of the inputs. -/
theorem sound_kernel2 (c : Dev nD) (E : Set ℕ) (i : grid2.Coords)
    (arg2 : Memref sig .tc .vmem S1x128x512 .f32) (harg2 : arg2.IsWhole) (arg3 : Memref sig .tc .vmem S1x128x1 .f32) (harg3 : arg3.IsWhole)
    (arg4 : Memref sig .tc .vmem S1x1x512 .f32) (harg4 : arg4.IsWhole) (arg5 : Memref sig .tc .vmem S1x512x128 .f32) (harg5 : arg5.IsWhole)
    (arg6 : Memref sig .tc .vmem S1x128 .f32) (harg6 : arg6.IsWhole) (arg7 : Memref sig .tc .vmem S1x128x128 .f32) (harg7 : arg7.IsWhole)
    (x0 : Vec F S1x128x512 .f32) (x1 : Vec F S1x128x1 .f32) (x2 : Vec F S1x1x512 .f32) (x3 : Vec F S1x512x128 .f32) (x4 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out2_5 x0 x1 x2 x3 x4)) -∗ K ⟨⟩))
      ⊢ wp frame (wpE (defs₀ (F := F)) Variants.none c none) E (cc2__out_kernel i arg2 harg2 arg3 harg3 arg4 harg4 arg5 harg5 arg6 harg6 arg7 harg7) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of the third pipeline: arrays as found, inputs' buffers at their blocks, the output's at the aggregation. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.K.RunDefs.lean ====
/-
  The contents of a core's buffers at each boundary of the program's run: at launch; after the four reshapes of the
  small operands; after the first pallas_call (the adjacency array written); after the degree, its inverse square
  root and the two broadcasts; after the second pallas_call (the projected features written); after the third (the
  output written). Each pallas_call changes exactly one array, to what its pipeline's write-backs leave; everything
  else is carried. The three pipelines' proof data are taken at the contents their region is entered with.
-/
import proofs.«116299_j17961553231914_1_alg».proof.Proof.K.Body0
import proofs.«116299_j17961553231914_1_alg».proof.Proof.K.Body1
import proofs.«116299_j17961553231914_1_alg».proof.Proof.K.Body2
import proofs.«116299_j17961553231914_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- At launch. -/
abbrev W0 (c : Dev nD) : Valuation τ sig (Elt F) := fun b => m (c, b)
/-- After the reshapes of the small operands: the first region's entry. -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- The adjacency array as the first pipeline leaves it. -/
def adjArr (c : Dev nD) : Buf (Elt F) ((c : Thread nD τ).loc main_v4) := (dat0 (E1 m) c).arrAt 6 cfg0.N
/-- After the first region: the adjacency array written, everything else carried. -/
def W2 (c : Dev nD) : Valuation τ sig (Elt F) := Function.update (W1 m c) (Proc.devRef .tc main_v4) (adjArr m c)
abbrev E2 : (c : Dev nD) → (b : Ref sig .tc) → Buf (Elt F) ((c : Thread nD τ).loc b) := fun c b => W2 m c b
/-- After the degree, its inverse square root and the two broadcasts: the second region's entry. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- The projected-features array as the second pipeline leaves it. -/
def xwArr (c : Dev nD) : Buf (Elt F) ((c : Thread nD τ).loc main_v9) := (dat1 (E3 m) c).arrAt 2 cfg1.N
/-- After the second region: the third region's entry. -/
def W4 (c : Dev nD) : Valuation τ sig (Elt F) := Function.update (W3 m c) (Proc.devRef .tc main_v9) (xwArr m c)
abbrev E4 : (c : Dev nD) → (b : Ref sig .tc) → Buf (Elt F) ((c : Thread nD τ).loc b) := fun c b => W4 m c b
/-- The output array as the third pipeline leaves it. -/
def outArr (c : Dev nD) : Buf (Elt F) ((c : Thread nD τ).loc main_v10) := (dat2 (E4 m) c).arrAt 5 cfg2.N
/-- At the end. -/
def W5 (c : Dev nD) : Valuation τ sig (Elt F) := Function.update (W4 m c) (Proc.devRef .tc main_v10) (outArr m c)
abbrev E5 : (c : Dev nD) → (b : Ref sig .tc) → Buf (Elt F) ((c : Thread nD τ).loc b) := fun c b => W5 m c b

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E4 m) c

/-! ## What each step leaves unchanged -/

theorem W1_of (c : Dev nD) (r : Ref sig .tc) (h : r ∉ hostOps0_W) : W1 m c r = W0 m c r :=
  StableHlo.after_of_writes_sub hostOps0 _ hostOps0_writes h
theorem W2_adj (c : Dev nD) : W2 m c (Proc.devRef .tc main_v4) = adjArr m c := by
  unfold W2; exact Function.update_self ..
theorem W2_of (c : Dev nD) (r : Ref sig .tc) (h : r ≠ main_v4) : W2 m c r = W1 m c r := by
  unfold W2; exact Function.update_of_ne (StableHlo.devRef_ne_of_ne h) ..
theorem W3_of (c : Dev nD) (r : Ref sig .tc) (h : r ∉ hostOps1_W) : W3 m c r = W2 m c r :=
  StableHlo.after_of_writes_sub hostOps1 _ hostOps1_writes h
theorem W4_xw (c : Dev nD) : W4 m c (Proc.devRef .tc main_v9) = xwArr m c := by
  unfold W4; exact Function.update_self ..
theorem W4_of (c : Dev nD) (r : Ref sig .tc) (h : r ≠ main_v9) : W4 m c r = W3 m c r := by
  unfold W4; exact Function.update_of_ne (StableHlo.devRef_ne_of_ne h) ..
theorem W5_out (c : Dev nD) : W5 m c (Proc.devRef .tc main_v10) = outArr m c := by
  unfold W5; exact Function.update_self ..
theorem W5_of (c : Dev nD) (r : Ref sig .tc) (h : r ≠ main_v10) : W5 m c r = W4 m c r := by
  unfold W5; exact Function.update_of_ne (StableHlo.devRef_ne_of_ne h) ..

/-- A reference no host stretch writes and no region changes ends as launched. -/
theorem W5_kept (c : Dev nD) (r : Ref sig .tc) (h0 : r ∉ hostOps0_W) (h1 : r ∉ hostOps1_W)
    (h4 : r ≠ main_v4) (h9 : r ≠ main_v9) (h10 : r ≠ main_v10) : W5 m c r = m ((c : Thread nD τ).loc r) :=
  (W5_of m c r h10).trans <| (W4_of m c r h9).trans <| (W3_of m c r h1).trans <| (W2_of m c r h4).trans <| (W1_of m c r h0).trans rfl

/-- The adjacency array reaches the end as the first pipeline left it. -/
theorem W5_adj (c : Dev nD) : W5 m c (Proc.devRef .tc main_v4) = adjArr m c :=
  (W5_of m c main_v4 (by decide)).trans <| (W4_of m c main_v4 (by decide)).trans <| (W3_of m c main_v4 (by decide)).trans (W2_adj m c)

end Cert.Kernel.Hand

end
-- ==== Proof.K.Share0.lean ====
/-
  The first pallas_call hands ONE array, the node features, to two input windows. The pipeline holds each window's
  array at that window's share: the two windows onto the node features hold the left and the right half of its full
  share, every other window its array's full share. This module says how the six distinct buffers behind the seven
  windows' arrays, each whole at the full share, make the pipeline's seven points-tos (the node features' full share
  split into its halves), and back (the halves, at equal contents, joined).
-/
import proofs.«116299_j17961553231914_1_alg».proof.Proof.K.Body0
import proofs.«116299_j17961553231914_1_alg».proof.Proof.Gen.Kernel.Launch
import proofs.«116299_j17961553231914_1_alg».proof.Proof.Gen.Kernel.Skeleton
import proofs.«116299_j17961553231914_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The six distinct buffers behind the windows' arrays, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
          ∗ (((c : Thread nD τ).loc main_v0) ↦{fullShare} V' main_v0) ∗ (((c : Thread nD τ).loc main_v1) ↦{fullShare} V' main_v1)
          ∗ (((c : Thread nD τ).loc main_v2) ↦{fullShare} V' main_v2) ∗ (((c : Thread nD τ).loc main_v4) ↦{fullShare} V' main_v4)) := by
  unfold Pipeline.arrBufs
  exact bigSep_eq_bigSepL_of_eq [main_arg0, main_arg1, main_v0, main_v1, main_v2, main_v4] (by decide) (by decide) _

/-- The pipeline's seven points-tos, one by one: the two windows onto the node features at the two halves. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)
          ∗ (((c : Thread nD τ).loc main_v1) ↦{fullShare} G 4) ∗ (((c : Thread nD τ).loc main_v2) ↦{fullShare} G 5)
          ∗ (((c : Thread nD τ).loc main_v4) ↦{fullShare} G 6)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- ENTRY, the arrays alone: the six buffers whole at the full share make the pipeline's seven points-tos at the same
    contents, the node features' full share split into its two halves. -/
theorem arrays_of_arrBufs0 (c : Dev nD) :
    (Pipeline.arrBufs (Ix := Unit) (Name := ℕ) (U := UR sig nD τ) (Lvl := ℕ) spec0 c (V c) : sProp 𝕄)
      ⊢ (dat0 V c).arrays (dat0 V c).A := by
  rw [arrBufs0_eq, arrays0_eq]
  have hs : ((((c : Thread nD τ).loc main_arg0) ↦{fullShare} V c main_arg0 : sProp 𝕄))
      ⊢ iprop((((c : Thread nD τ).loc main_arg0) ↦{fullShare.left} V c main_arg0)
          ∗ (((c : Thread nD τ).loc main_arg0) ↦{fullShare.right} V c main_arg0)) :=
    (pointsTo_share (PosShare.mem_left_op_right fullShare)).1
  iintro ⟨Hx, H1, H2, H3, H4, H5⟩
  ihave Hx' := hs $$ Hx
  icases Hx' with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- EXIT, the arrays alone: the pipeline's seven points-tos, at contents that are one valuation's (so that the two
    windows onto the node features hold the same contents), make the six buffers whole at the full share. -/
theorem arrBufs_of_arrays0 (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    ((dat0 V c).arrays G : sProp 𝕄)
      ⊢ Pipeline.arrBufs (Ix := Unit) (Name := ℕ) (U := UR sig nD τ) (Lvl := ℕ) spec0 c V' := by
  rw [arrBufs0_eq, arrays0_eq, hG 0, hG 1, hG 2, hG 3, hG 4, hG 5, hG 6]
  iintro ⟨Hl, Hr, H1, H2, H3, H4, H5⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  isplitl [H4]; · iexact H4
  iexact H5

/-- ENTRY: a core's unscoped buffers at contents `V c` are the first pipeline's arrays at its entry contents and the
    unscoped rest. -/
theorem arrays_of_unscopedBufs0 (c : Dev nD) :
    (unscopedBufs c (V c) : sProp 𝕄) ⊢ iprop((dat0 V c).arrays (dat0 V c).A ∗ Pipeline.unscopedRest spec0 c (V c)) := by
  rw [Pipeline.unscopedBufs_split₀ cfgs 0 winFacts₀0.arr_unscoped c (V c)]
  exact sep_mono (arrays_of_arrBufs0 V c) .rfl

/-- EXIT: the first pipeline's arrays at contents `G` and the unscoped rest at `V c` are the core's unscoped buffers
    at any valuation that has the arrays at `G` and agrees with `V c` off them. -/
theorem unscopedBufs_of_arrays0 (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w))
    (hrest : ∀ b, b ∉ Finset.univ.image (Pipeline.arrRef spec0) → V' b = V c b) :
    iprop((dat0 V c).arrays G ∗ Pipeline.unscopedRest spec0 c (V c)) ⊢ (unscopedBufs c V' : sProp 𝕄) := by
  rw [Pipeline.unscopedBufs_split₀ cfgs 0 winFacts₀0.arr_unscoped c V']
  refine sep_mono (arrBufs_of_arrays0 V c V' G hG) (Entails.of_eq ?_)
  unfold Pipeline.unscopedRest
  exact bigSep_congr fun b hb => by rw [hrest b (Finset.mem_sdiff.mp hb).2]

end

end Cert.Kernel.Hand

end
-- ==== Proof.K.Run.lean ====
/-
  The program's run, from launch to return: four reshapes on the host, the first pallas_call, the degree and its
  inverse square root with two broadcasts on the host, the second pallas_call, the third. Each host stretch runs over
  the core's unscoped buffers at the contents the item before left; each pallas_call is entered with those buffers,
  takes its windows' arrays out of them (the first one splitting the node features' share between its two windows onto
  it), runs its pipeline, and puts the arrays back with its one output array at what the write-backs leave. Every
  weakly fair execution terminates, and at the end every unscoped buffer holds the last boundary's contents.
-/
import proofs.«116299_j17961553231914_1_alg».proof.Proof.K.RunDefs
import proofs.«116299_j17961553231914_1_alg».proof.Proof.K.Share0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region's exit contents are, array by array -/

theorem hF0 (c : Dev nD) (w : Fin cfg0.W) : (dat0 (E1 m) c).arrAt w cfg0.N = E2 m c (Pipeline.arrRef spec0 w) :=
  match w with
  | ⟨0, _⟩ => ((dat0 (E1 m) c).arrAt_in 0 rfl _).trans ((A_eq0 (E1 m) c 0).trans (W2_of m c main_arg0 (by decide)).symm)
  | ⟨1, _⟩ => ((dat0 (E1 m) c).arrAt_in 1 rfl _).trans ((A_eq0 (E1 m) c 1).trans (W2_of m c main_arg0 (by decide)).symm)
  | ⟨2, _⟩ => ((dat0 (E1 m) c).arrAt_in 2 rfl _).trans ((A_eq0 (E1 m) c 2).trans (W2_of m c main_arg1 (by decide)).symm)
  | ⟨3, _⟩ => ((dat0 (E1 m) c).arrAt_in 3 rfl _).trans ((A_eq0 (E1 m) c 3).trans (W2_of m c main_v0 (by decide)).symm)
  | ⟨4, _⟩ => ((dat0 (E1 m) c).arrAt_in 4 rfl _).trans ((A_eq0 (E1 m) c 4).trans (W2_of m c main_v1 (by decide)).symm)
  | ⟨5, _⟩ => ((dat0 (E1 m) c).arrAt_in 5 rfl _).trans ((A_eq0 (E1 m) c 5).trans (W2_of m c main_v2 (by decide)).symm)
  | ⟨6, _⟩ => (W2_adj m c).symm
theorem hrest0 (c : Dev nD) : ∀ b, b ∉ Finset.univ.image (Pipeline.arrRef spec0) → E2 m c b = E1 m c b :=
  fun b hb => W2_of m c b fun e => hb (Finset.mem_image.mpr ⟨6, Finset.mem_univ _, e.symm⟩)

theorem hF1 (c : Dev nD) (w : Fin cfg1.W) : (dat1 (E3 m) c).arrAt w cfg1.N = E4 m c (Pipeline.arrRef spec1 w) :=
  match w with
  | ⟨0, _⟩ => ((dat1 (E3 m) c).arrAt_in 0 rfl _).trans ((A_eq1 (E3 m) c 0).trans (W4_of m c main_arg0 (by decide)).symm)
  | ⟨1, _⟩ => ((dat1 (E3 m) c).arrAt_in 1 rfl _).trans ((A_eq1 (E3 m) c 1).trans (W4_of m c main_arg5 (by decide)).symm)
  | ⟨2, _⟩ => (W4_xw m c).symm
theorem hrest1 (c : Dev nD) : ∀ b, b ∉ Finset.univ.image (Pipeline.arrRef spec1) → E4 m c b = E3 m c b :=
  fun b hb => W4_of m c b fun e => hb (Finset.mem_image.mpr ⟨2, Finset.mem_univ _, e.symm⟩)

theorem hF2 (c : Dev nD) (w : Fin cfg2.W) : (dat2 (E4 m) c).arrAt w cfg2.N = E5 m c (Pipeline.arrRef spec2 w) :=
  match w with
  | ⟨0, _⟩ => ((dat2 (E4 m) c).arrAt_in 0 rfl _).trans ((A_eq2 (E4 m) c 0).trans (W5_of m c main_v4 (by decide)).symm)
  | ⟨1, _⟩ => ((dat2 (E4 m) c).arrAt_in 1 rfl _).trans ((A_eq2 (E4 m) c 1).trans (W5_of m c main_v7 (by decide)).symm)
  | ⟨2, _⟩ => ((dat2 (E4 m) c).arrAt_in 2 rfl _).trans ((A_eq2 (E4 m) c 2).trans (W5_of m c main_v8 (by decide)).symm)
  | ⟨3, _⟩ => ((dat2 (E4 m) c).arrAt_in 3 rfl _).trans ((A_eq2 (E4 m) c 3).trans (W5_of m c main_v9 (by decide)).symm)
  | ⟨4, _⟩ => ((dat2 (E4 m) c).arrAt_in 4 rfl _).trans ((A_eq2 (E4 m) c 4).trans (W5_of m c main_v3 (by decide)).symm)
  | ⟨5, _⟩ => (W5_out m c).symm
theorem hrest2 (c : Dev nD) : ∀ b, b ∉ Finset.univ.image (Pipeline.arrRef spec2) → E5 m c b = E4 m c b :=
  fun b hb => W5_of m c b fun e => hb (Finset.mem_image.mpr ⟨5, Finset.mem_univ _, e.symm⟩)

/-! ## The thread state -/

abbrev 𝒱n : Variants := Variants.none
/-- No core owes another anything: no level is assigned. -/
abbrev Lv0 : GSem nD τ sig → Finset Unit := fun _ => ∅
abbrev lvl0 : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)
/-- A host stretch over the unscoped buffers from the contents `W`. -/
abbrev hsegOf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lv0 lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (W5 m c) ∗ ∃ r, prngReg c r)

/-! ## The regions -/

set_option backward.isDefEq.respectTransparency.types false in
/-- The first region: its windows may share an array, so its arrays are split out of the unscoped buffers and put back
    by this certificate's own two lemmas (the node features' share halved between the two windows onto it). -/
def reg0 : Pipeline.RegionSeg (pcfgs (F := F)) adm (pdats m) () defs₀ 𝒱n Lv0 lvl0 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ Lv0 lvl0 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := arrays_of_unscopedBufs0 (E1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (E1 m c))
        ⊢ (unscopedBufs c (E2 m c) : sProp 𝕄) :=
      unscopedBufs_of_arrays0 (E1 m) c (E2 m c) ((dat0 (E1 m) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it; its arrays split out of the unscoped buffers and put back; the generator register into the
    pipeline's invariant and out; nothing owed. -/
def reg1 : Pipeline.RegionSeg (pcfgs (F := F)) adm (pdats m) () defs₀ 𝒱n Lv0 lvl0 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lv0 lvl0 1 fun _ _ => rfl
  pre c := iprop(StableHlo.held (c : Thread nD τ) (Pipeline.ucRefs τ sig) (W3 m c) ∗ Rd c)
  post c := iprop(StableHlo.held (c : Thread nD τ) (Pipeline.ucRefs τ sig) (W4 m c) ∗ Rd c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it; its arrays split out of the unscoped buffers and put back; the generator register into the
    pipeline's invariant and out; nothing owed. -/
def reg2 : Pipeline.RegionSeg (pcfgs (F := F)) adm (pdats m) () defs₀ 𝒱n Lv0 lvl0 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ Lv0 lvl0 2 fun _ _ => rfl
  pre c := iprop(StableHlo.held (c : Thread nD τ) (Pipeline.ucRefs τ sig) (W4 m c) ∗ Rd c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five items in order. -/
abbrev mySegs : List (Pipeline.Seg (pcfgs (F := F)) adm (pdats m) () defs₀ 𝒱n Lv0 lvl0) :=
  [ .host (hsegOf hostOps0 hostOps0_sub hostOps0_fresh (W0 m)),
    .region (reg0 m),
    .host (hsegOf hostOps1 hostOps1_sub hostOps1_fresh (W2 m)),
    .region (reg1 m),
    .region (reg2 m) ]
theorem main_run (c : Dev nD) : main (F := F) c = Pipeline.Seg.run (mySegs m) := (main_chain c).trans (by chain_rfl)

set_option backward.isDefEq.respectTransparency.types false in
/-- THE RUN: from any memory with zero counters every weakly fair execution of @main terminates, nothing faulting, and
    every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱n Lv0 lvl0 m ρ main (mySegs m)
    (fun c Q => by rw [main_run m c])
    (by simp only [mySegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tn m)
    (hch := ⟨fun _ => .rfl, fun _ => .rfl, fun _ => .rfl, fun _ => .rfl, fun _ => .rfl, fun _ => .rfl⟩)
    (hinit := by
      refine Pipeline.initEach Lv0 lvl0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.KI.Body0.lean ====
/-
  The first pallas_call: at grid point (b, i, j) the body takes rows i·128… and rows j·128… of batch b of the node
  features (two windows onto the SAME array), the first layer's weight and bias row, the second layer's weight row
  and the scalar bias; for every pair of a row of the first block and a row of the second it forms the absolute
  difference, applies the first layer with a rectifier, contracts with the second layer's row, adds the scalar and
  applies the logistic function, and stores the 128×128 block of scores whole. This module states, at any contents
  V of the core's buffers at the region's entry, each window's block at a point, what the body leaves in the output
  window's buffer, the body's triple, the pipeline's proof data — the two windows onto the shared array holding the
  two halves of its full share — and the body obligation at every point.
-/
import proofs.«116299_j17961553231914_1_alg».proof.Proof.Gen.KernelIdeal.Launch
import proofs.«116299_j17961553231914_1_alg».proof.Proof.Gen.KernelIdeal.Skeleton
import proofs.«116299_j17961553231914_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first row block's buffer holds rows (b, i) at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second row block's buffer holds rows (b, j) at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first layer's weight is in its buffer at every point (fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The first layer's bias row is in its buffer at every point (fetched once). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The second layer's weight row is in its buffer at every point (fetched once). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The scalar bias is in its buffer at every point (fetched once). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev rRows : Rect S1x128x128 := Rect.unit (s := S1x128x128) ![0, 0, 0] S1x128x128.size inb_S1x128x128_S1x128x128_0_0_0
abbrev rW1 : Rect S128x128 := Rect.unit (s := S128x128) ![0, 0] S128x128.size inb_S128x128_S128x128_0_0
abbrev rRow128 : Rect S1x128 := Rect.unit (s := S1x128) ![0, 0] S1x128.size inb_S1x128_S1x128_0_0
abbrev rOne : Rect S1x1 := Rect.unit (s := S1x1) ![0, 0] S1x1.size inb_S1x1_S1x1_0_0

/-- What the body leaves in the output window's buffer: the score payload of the six loaded blocks, stored whole. -/
def out0_6 (x0 x1 : Vec F S1x128x128 .f32) (x2 : Vec F S128x128 .f32) (x3 x4 : Vec F S1x128 .f32) (x5 : Vec F S1x1 .f32) : Vec F S1x128x128 .f32 :=
  View.canon [⟨rRows, k0_pay1 (View.ld x0 rRows) (View.ld x1 rRows) (View.ld x2 rW1) (View.ld x3 rRow128) (View.ld x4 rRow128) (View.ld x5 rOne)⟩]

theorem cover0_6 (p0 : Vec F S1x128x128 .f32) (y : S1x128x128.Idx) :
    ∃ pc ∈ ([⟨rRows, p0⟩] : List (View.Piece (Elt F) S1x128x128 .f32)), y ∈ pc.1.set :=
  View.cover_of_tiled [⟨rRows, p0⟩] S1x128x128.size (by rfl) y

set_option maxHeartbeats 1000000 in
/-- The body on whole staging memrefs: the inputs stay, the output ends at `out0_6` of the inputs. -/
theorem sound_kernel0 (c : Dev nD) (E : Set ℕ) (i : grid0.Coords)
    (arg3 : Memref sig .tc .vmem S1x128x128 .f32) (harg3 : arg3.IsWhole) (arg4 : Memref sig .tc .vmem S1x128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x1 .f32) (harg8 : arg8.IsWhole)
    (arg9 : Memref sig .tc .vmem S1x128x128 .f32) (harg9 : arg9.IsWhole)
    (x0 x1 : Vec F S1x128x128 .f32) (x2 : Vec F S128x128 .f32) (x3 x4 : Vec F S1x128 .f32) (x5 : Vec F S1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (out0_6 x0 x1 x2 x3 x4 x5)) -∗ K ⟨⟩))
      ⊢ wp frame (wpE (defs₀ (F := F)) Variants.none c none) E
          (cc0__adj_kernel i arg3 harg3 arg4 harg4 arg5 harg5 arg6 harg6 arg7 harg7 arg8 harg8 arg9 harg9) K := by
  simp only [cc0__adj_kernel_eq_skeleton]; unfold cc0__adj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of the first pipeline: arrays as found, inputs' buffers at their blocks, the output's at the scores;
    the two windows onto the node features hold the left and the right half of that array's full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Body1.lean ====
/-
  The second pallas_call: per batch b, one grid point multiplies the whole 512×128 slab x[b] by the 128×128
  weight and writes the 512×128 product slab. This module states, at any contents V of the core's buffers when the
  region is entered, what each window's block is at a grid point, what the kernel body leaves in the output
  window's buffer (one whole-block store of the product of the two loaded blocks), the body's triple, the
  pipeline's proof data, and the body obligation at every point.
-/
import proofs.«116299_j17961553231914_1_alg».proof.Proof.Gen.KernelIdeal.Launch
import proofs.«116299_j17961553231914_1_alg».proof.Proof.Gen.KernelIdeal.Skeleton
import proofs.«116299_j17961553231914_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The slab window's current buffer holds slab b at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's buffer holds the whole weight at every point (fetched once, its index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rSlab : Rect S1x512x128 := Rect.unit (s := S1x512x128) ![0, 0, 0] S1x512x128.size inb_S1x512x128_S1x512x128_0_0_0
abbrev rWt : Rect S128x128 := Rect.unit (s := S128x128) ![0, 0] S128x128.size inb_S128x128_S128x128_0_0

/-- What the body leaves in the output window's buffer: the product payload of the two loaded blocks, stored whole. -/
def out1_2 (x0 : Vec F S1x512x128 .f32) (x1 : Vec F S128x128 .f32) : Vec F S1x512x128 .f32 :=
  View.canon [⟨rSlab, k1_pay1 (View.ld x0 rSlab) (View.ld x1 rWt)⟩]

theorem cover1_2 (p0 : Vec F S1x512x128 .f32) (y : S1x512x128.Idx) :
    ∃ pc ∈ ([⟨rSlab, p0⟩] : List (View.Piece (Elt F) S1x512x128 .f32)), y ∈ pc.1.set :=
  View.cover_of_tiled [⟨rSlab, p0⟩] S1x512x128.size (by rfl) y

set_option maxHeartbeats 1000000 in
/-- The body on whole staging memrefs: the inputs stay, the output ends at `out1_2` of the inputs. -/
theorem sound_kernel1 (c : Dev nD) (E : Set ℕ) (i : grid1.Coords) (arg1 : Memref sig .tc .vmem S1x512x128 .f32) (harg1 : arg1.IsWhole)
    (arg2 : Memref sig .tc .vmem S128x128 .f32) (harg2 : arg2.IsWhole) (arg3 : Memref sig .tc .vmem S1x512x128 .f32) (harg3 : arg3.IsWhole)
    (x0 : Vec F S1x512x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__xw_kernel i arg1 harg1 arg2 harg2 arg3 harg3) K := by
  simp only [cc1__xw_kernel_eq_skeleton]; unfold cc1__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline: arrays as found, inputs' buffers at their blocks, the output's at the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Body2.lean ====
/-
  The third pallas_call: at grid point (b, i) the body takes a 128×512 strip of the adjacency, the 128 row factors
  and the 512 column factors of the inverse square-root degree, the 512×128 slab of projected features and the bias
  row; it scales the strip by row and by column factor, multiplies by the slab and adds the bias, and stores the
  128×128 result block whole. This module states, at any contents V of the core's buffers at the region's entry,
  each window's block at a point, what the body leaves in the output window's buffer, the body's triple, the
  pipeline's proof data and the body obligation at every point.
-/
import proofs.«116299_j17961553231914_1_alg».proof.Proof.Gen.KernelIdeal.Launch
import proofs.«116299_j17961553231914_1_alg».proof.Proof.Gen.KernelIdeal.Skeleton
import proofs.«116299_j17961553231914_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency strip's buffer holds strip (b, i) at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row factors' buffer holds rows (b, i) at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The column factors' buffer holds batch b's factors at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The feature slab's buffer holds batch b's slab at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The bias row's buffer holds the bias at every point (fetched once). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev rStrip : Rect S1x128x512 := Rect.unit (s := S1x128x512) ![0, 0, 0] S1x128x512.size inb_S1x128x512_S1x128x512_0_0_0
abbrev rRowF : Rect S1x128x1 := Rect.unit (s := S1x128x1) ![0, 0, 0] S1x128x1.size inb_S1x128x1_S1x128x1_0_0_0
abbrev rColF : Rect S1x1x512 := Rect.unit (s := S1x1x512) ![0, 0, 0] S1x1x512.size inb_S1x1x512_S1x1x512_0_0_0
abbrev rFeat : Rect S1x512x128 := Rect.unit (s := S1x512x128) ![0, 0, 0] S1x512x128.size inb_S1x512x128_S1x512x128_0_0_0
abbrev rBias : Rect S1x128 := Rect.unit (s := S1x128) ![0, 0] S1x128.size inb_S1x128_S1x128_0_0
abbrev rOutB : Rect S1x128x128 := Rect.unit (s := S1x128x128) ![0, 0, 0] S1x128x128.size inb_S1x128x128_S1x128x128_0_0_0

/-- What the body leaves in the output window's buffer: the aggregation payload of the five loaded blocks, stored whole. -/
def out2_5 (x0 : Vec F S1x128x512 .f32) (x1 : Vec F S1x128x1 .f32) (x2 : Vec F S1x1x512 .f32) (x3 : Vec F S1x512x128 .f32) (x4 : Vec F S1x128 .f32) : Vec F S1x128x128 .f32 :=
  View.canon [⟨rOutB, k2_pay1 (View.ld x0 rStrip) (View.ld x1 rRowF) (View.ld x2 rColF) (View.ld x3 rFeat) (View.ld x4 rBias)⟩]

theorem cover2_5 (p0 : Vec F S1x128x128 .f32) (y : S1x128x128.Idx) :
    ∃ pc ∈ ([⟨rOutB, p0⟩] : List (View.Piece (Elt F) S1x128x128 .f32)), y ∈ pc.1.set :=
  View.cover_of_tiled [⟨rOutB, p0⟩] S1x128x128.size (by rfl) y

set_option maxHeartbeats 1000000 in
/-- The body on whole staging memrefs: the inputs stay, the output ends at `out2_5` of the inputs. -/
theorem sound_kernel2 (c : Dev nD) (E : Set ℕ) (i : grid2.Coords)
    (arg2 : Memref sig .tc .vmem S1x128x512 .f32) (harg2 : arg2.IsWhole) (arg3 : Memref sig .tc .vmem S1x128x1 .f32) (harg3 : arg3.IsWhole)
    (arg4 : Memref sig .tc .vmem S1x1x512 .f32) (harg4 : arg4.IsWhole) (arg5 : Memref sig .tc .vmem S1x512x128 .f32) (harg5 : arg5.IsWhole)
    (arg6 : Memref sig .tc .vmem S1x128 .f32) (harg6 : arg6.IsWhole) (arg7 : Memref sig .tc .vmem S1x128x128 .f32) (harg7 : arg7.IsWhole)
    (x0 : Vec F S1x128x512 .f32) (x1 : Vec F S1x128x1 .f32) (x2 : Vec F S1x1x512 .f32) (x3 : Vec F S1x512x128 .f32) (x4 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out2_5 x0 x1 x2 x3 x4)) -∗ K ⟨⟩))
      ⊢ wp frame (wpE (defs₀ (F := F)) Variants.none c none) E (cc2__out_kernel i arg2 harg2 arg3 harg3 arg4 harg4 arg5 harg5 arg6 harg6 arg7 harg7) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of the third pipeline: arrays as found, inputs' buffers at their blocks, the output's at the aggregation. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KI.RunDefs.lean ====
/-
  The contents of a core's buffers at each boundary of the program's run: at launch; after the four reshapes of the
  small operands; after the first pallas_call (the adjacency array written); after the degree, its inverse square
  root and the two broadcasts; after the second pallas_call (the projected features written); after the third (the
  output written). Each pallas_call changes exactly one array, to what its pipeline's write-backs leave; everything
  else is carried. The three pipelines' proof data are taken at the contents their region is entered with.
-/
import proofs.«116299_j17961553231914_1_alg».proof.Proof.KI.Body0
import proofs.«116299_j17961553231914_1_alg».proof.Proof.KI.Body1
import proofs.«116299_j17961553231914_1_alg».proof.Proof.KI.Body2
import proofs.«116299_j17961553231914_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- At launch. -/
abbrev W0 (c : Dev nD) : Valuation τ sig (Elt F) := fun b => m (c, b)
/-- After the reshapes of the small operands: the first region's entry. -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- The adjacency array as the first pipeline leaves it. -/
def adjArr (c : Dev nD) : Buf (Elt F) ((c : Thread nD τ).loc main_v4) := (dat0 (E1 m) c).arrAt 6 cfg0.N
/-- After the first region: the adjacency array written, everything else carried. -/
def W2 (c : Dev nD) : Valuation τ sig (Elt F) := Function.update (W1 m c) (Proc.devRef .tc main_v4) (adjArr m c)
abbrev E2 : (c : Dev nD) → (b : Ref sig .tc) → Buf (Elt F) ((c : Thread nD τ).loc b) := fun c b => W2 m c b
/-- After the degree, its inverse square root and the two broadcasts: the second region's entry. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- The projected-features array as the second pipeline leaves it. -/
def xwArr (c : Dev nD) : Buf (Elt F) ((c : Thread nD τ).loc main_v9) := (dat1 (E3 m) c).arrAt 2 cfg1.N
/-- After the second region: the third region's entry. -/
def W4 (c : Dev nD) : Valuation τ sig (Elt F) := Function.update (W3 m c) (Proc.devRef .tc main_v9) (xwArr m c)
abbrev E4 : (c : Dev nD) → (b : Ref sig .tc) → Buf (Elt F) ((c : Thread nD τ).loc b) := fun c b => W4 m c b
/-- The output array as the third pipeline leaves it. -/
def outArr (c : Dev nD) : Buf (Elt F) ((c : Thread nD τ).loc main_v10) := (dat2 (E4 m) c).arrAt 5 cfg2.N
/-- At the end. -/
def W5 (c : Dev nD) : Valuation τ sig (Elt F) := Function.update (W4 m c) (Proc.devRef .tc main_v10) (outArr m c)
abbrev E5 : (c : Dev nD) → (b : Ref sig .tc) → Buf (Elt F) ((c : Thread nD τ).loc b) := fun c b => W5 m c b

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E4 m) c

/-! ## What each step leaves unchanged -/

theorem W1_of (c : Dev nD) (r : Ref sig .tc) (h : r ∉ hostOps0_W) : W1 m c r = W0 m c r :=
  StableHlo.after_of_writes_sub hostOps0 _ hostOps0_writes h
theorem W2_adj (c : Dev nD) : W2 m c (Proc.devRef .tc main_v4) = adjArr m c := by
  unfold W2; exact Function.update_self ..
theorem W2_of (c : Dev nD) (r : Ref sig .tc) (h : r ≠ main_v4) : W2 m c r = W1 m c r := by
  unfold W2; exact Function.update_of_ne (StableHlo.devRef_ne_of_ne h) ..
theorem W3_of (c : Dev nD) (r : Ref sig .tc) (h : r ∉ hostOps1_W) : W3 m c r = W2 m c r :=
  StableHlo.after_of_writes_sub hostOps1 _ hostOps1_writes h
theorem W4_xw (c : Dev nD) : W4 m c (Proc.devRef .tc main_v9) = xwArr m c := by
  unfold W4; exact Function.update_self ..
theorem W4_of (c : Dev nD) (r : Ref sig .tc) (h : r ≠ main_v9) : W4 m c r = W3 m c r := by
  unfold W4; exact Function.update_of_ne (StableHlo.devRef_ne_of_ne h) ..
theorem W5_out (c : Dev nD) : W5 m c (Proc.devRef .tc main_v10) = outArr m c := by
  unfold W5; exact Function.update_self ..
theorem W5_of (c : Dev nD) (r : Ref sig .tc) (h : r ≠ main_v10) : W5 m c r = W4 m c r := by
  unfold W5; exact Function.update_of_ne (StableHlo.devRef_ne_of_ne h) ..

/-- A reference no host stretch writes and no region changes ends as launched. -/
theorem W5_kept (c : Dev nD) (r : Ref sig .tc) (h0 : r ∉ hostOps0_W) (h1 : r ∉ hostOps1_W)
    (h4 : r ≠ main_v4) (h9 : r ≠ main_v9) (h10 : r ≠ main_v10) : W5 m c r = m ((c : Thread nD τ).loc r) :=
  (W5_of m c r h10).trans <| (W4_of m c r h9).trans <| (W3_of m c r h1).trans <| (W2_of m c r h4).trans <| (W1_of m c r h0).trans rfl

/-- The adjacency array reaches the end as the first pipeline left it. -/
theorem W5_adj (c : Dev nD) : W5 m c (Proc.devRef .tc main_v4) = adjArr m c :=
  (W5_of m c main_v4 (by decide)).trans <| (W4_of m c main_v4 (by decide)).trans <| (W3_of m c main_v4 (by decide)).trans (W2_adj m c)

end Cert.KernelIdeal.Hand

end
-- ==== Proof.KI.Share0.lean ====
/-
  The first pallas_call hands ONE array, the node features, to two input windows. The pipeline holds each window's
  array at that window's share: the two windows onto the node features hold the left and the right half of its full
  share, every other window its array's full share. This module says how the six distinct buffers behind the seven
  windows' arrays, each whole at the full share, make the pipeline's seven points-tos (the node features' full share
  split into its halves), and back (the halves, at equal contents, joined).
-/
import proofs.«116299_j17961553231914_1_alg».proof.Proof.KI.Body0
import proofs.«116299_j17961553231914_1_alg».proof.Proof.Gen.KernelIdeal.Launch
import proofs.«116299_j17961553231914_1_alg».proof.Proof.Gen.KernelIdeal.Skeleton
import proofs.«116299_j17961553231914_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The six distinct buffers behind the windows' arrays, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
          ∗ (((c : Thread nD τ).loc main_v0) ↦{fullShare} V' main_v0) ∗ (((c : Thread nD τ).loc main_v1) ↦{fullShare} V' main_v1)
          ∗ (((c : Thread nD τ).loc main_v2) ↦{fullShare} V' main_v2) ∗ (((c : Thread nD τ).loc main_v4) ↦{fullShare} V' main_v4)) := by
  unfold Pipeline.arrBufs
  exact bigSep_eq_bigSepL_of_eq [main_arg0, main_arg1, main_v0, main_v1, main_v2, main_v4] (by decide) (by decide) _

/-- The pipeline's seven points-tos, one by one: the two windows onto the node features at the two halves. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)
          ∗ (((c : Thread nD τ).loc main_v1) ↦{fullShare} G 4) ∗ (((c : Thread nD τ).loc main_v2) ↦{fullShare} G 5)
          ∗ (((c : Thread nD τ).loc main_v4) ↦{fullShare} G 6)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ]
  rfl

/-- ENTRY, the arrays alone: the six buffers whole at the full share make the pipeline's seven points-tos at the same
    contents, the node features' full share split into its two halves. -/
theorem arrays_of_arrBufs0 (c : Dev nD) :
    (Pipeline.arrBufs (Ix := Unit) (Name := ℕ) (U := UR sig nD τ) (Lvl := ℕ) spec0 c (V c) : sProp 𝕄)
      ⊢ (dat0 V c).arrays (dat0 V c).A := by
  rw [arrBufs0_eq, arrays0_eq]
  have hs : ((((c : Thread nD τ).loc main_arg0) ↦{fullShare} V c main_arg0 : sProp 𝕄))
      ⊢ iprop((((c : Thread nD τ).loc main_arg0) ↦{fullShare.left} V c main_arg0)
          ∗ (((c : Thread nD τ).loc main_arg0) ↦{fullShare.right} V c main_arg0)) :=
    (pointsTo_share (PosShare.mem_left_op_right fullShare)).1
  iintro ⟨Hx, H1, H2, H3, H4, H5⟩
  ihave Hx' := hs $$ Hx
  icases Hx' with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- EXIT, the arrays alone: the pipeline's seven points-tos, at contents that are one valuation's (so that the two
    windows onto the node features hold the same contents), make the six buffers whole at the full share. -/
theorem arrBufs_of_arrays0 (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    ((dat0 V c).arrays G : sProp 𝕄)
      ⊢ Pipeline.arrBufs (Ix := Unit) (Name := ℕ) (U := UR sig nD τ) (Lvl := ℕ) spec0 c V' := by
  rw [arrBufs0_eq, arrays0_eq, hG 0, hG 1, hG 2, hG 3, hG 4, hG 5, hG 6]
  iintro ⟨Hl, Hr, H1, H2, H3, H4, H5⟩
  isplitl [Hl Hr]
  · iapply (pointsTo_share (PosShare.mem_left_op_right fullShare)).2
    isplitl [Hl]; · iexact Hl
    iexact Hr
  isplitl [H1]; · iexact H1
  isplitl [H2]; · iexact H2
  isplitl [H3]; · iexact H3
  isplitl [H4]; · iexact H4
  iexact H5

/-- ENTRY: a core's unscoped buffers at contents `V c` are the first pipeline's arrays at its entry contents and the
    unscoped rest. -/
theorem arrays_of_unscopedBufs0 (c : Dev nD) :
    (unscopedBufs c (V c) : sProp 𝕄) ⊢ iprop((dat0 V c).arrays (dat0 V c).A ∗ Pipeline.unscopedRest spec0 c (V c)) := by
  rw [Pipeline.unscopedBufs_split₀ cfgs 0 winFacts₀0.arr_unscoped c (V c)]
  exact sep_mono (arrays_of_arrBufs0 V c) .rfl

/-- EXIT: the first pipeline's arrays at contents `G` and the unscoped rest at `V c` are the core's unscoped buffers
    at any valuation that has the arrays at `G` and agrees with `V c` off them. -/
theorem unscopedBufs_of_arrays0 (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w))
    (hrest : ∀ b, b ∉ Finset.univ.image (Pipeline.arrRef spec0) → V' b = V c b) :
    iprop((dat0 V c).arrays G ∗ Pipeline.unscopedRest spec0 c (V c)) ⊢ (unscopedBufs c V' : sProp 𝕄) := by
  rw [Pipeline.unscopedBufs_split₀ cfgs 0 winFacts₀0.arr_unscoped c V']
  refine sep_mono (arrBufs_of_arrays0 V c V' G hG) (Entails.of_eq ?_)
  unfold Pipeline.unscopedRest
  exact bigSep_congr fun b hb => by rw [hrest b (Finset.mem_sdiff.mp hb).2]

end

end Cert.KernelIdeal.Hand

end
-- ==== Proof.KI.Run.lean ====
/-
  The program's run, from launch to return: four reshapes on the host, the first pallas_call, the degree and its
  inverse square root with two broadcasts on the host, the second pallas_call, the third. Each host stretch runs over
  the core's unscoped buffers at the contents the item before left; each pallas_call is entered with those buffers,
  takes its windows' arrays out of them (the first one splitting the node features' share between its two windows onto
  it), runs its pipeline, and puts the arrays back with its one output array at what the write-backs leave. Every
  weakly fair execution terminates, and at the end every unscoped buffer holds the last boundary's contents.
-/
import proofs.«116299_j17961553231914_1_alg».proof.Proof.KI.RunDefs
import proofs.«116299_j17961553231914_1_alg».proof.Proof.KI.Share0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region's exit contents are, array by array -/

theorem hF0 (c : Dev nD) (w : Fin cfg0.W) : (dat0 (E1 m) c).arrAt w cfg0.N = E2 m c (Pipeline.arrRef spec0 w) :=
  match w with
  | ⟨0, _⟩ => ((dat0 (E1 m) c).arrAt_in 0 rfl _).trans ((A_eq0 (E1 m) c 0).trans (W2_of m c main_arg0 (by decide)).symm)
  | ⟨1, _⟩ => ((dat0 (E1 m) c).arrAt_in 1 rfl _).trans ((A_eq0 (E1 m) c 1).trans (W2_of m c main_arg0 (by decide)).symm)
  | ⟨2, _⟩ => ((dat0 (E1 m) c).arrAt_in 2 rfl _).trans ((A_eq0 (E1 m) c 2).trans (W2_of m c main_arg1 (by decide)).symm)
  | ⟨3, _⟩ => ((dat0 (E1 m) c).arrAt_in 3 rfl _).trans ((A_eq0 (E1 m) c 3).trans (W2_of m c main_v0 (by decide)).symm)
  | ⟨4, _⟩ => ((dat0 (E1 m) c).arrAt_in 4 rfl _).trans ((A_eq0 (E1 m) c 4).trans (W2_of m c main_v1 (by decide)).symm)
  | ⟨5, _⟩ => ((dat0 (E1 m) c).arrAt_in 5 rfl _).trans ((A_eq0 (E1 m) c 5).trans (W2_of m c main_v2 (by decide)).symm)
  | ⟨6, _⟩ => (W2_adj m c).symm
theorem hrest0 (c : Dev nD) : ∀ b, b ∉ Finset.univ.image (Pipeline.arrRef spec0) → E2 m c b = E1 m c b :=
  fun b hb => W2_of m c b fun e => hb (Finset.mem_image.mpr ⟨6, Finset.mem_univ _, e.symm⟩)

theorem hF1 (c : Dev nD) (w : Fin cfg1.W) : (dat1 (E3 m) c).arrAt w cfg1.N = E4 m c (Pipeline.arrRef spec1 w) :=
  match w with
  | ⟨0, _⟩ => ((dat1 (E3 m) c).arrAt_in 0 rfl _).trans ((A_eq1 (E3 m) c 0).trans (W4_of m c main_arg0 (by decide)).symm)
  | ⟨1, _⟩ => ((dat1 (E3 m) c).arrAt_in 1 rfl _).trans ((A_eq1 (E3 m) c 1).trans (W4_of m c main_arg5 (by decide)).symm)
  | ⟨2, _⟩ => (W4_xw m c).symm
theorem hrest1 (c : Dev nD) : ∀ b, b ∉ Finset.univ.image (Pipeline.arrRef spec1) → E4 m c b = E3 m c b :=
  fun b hb => W4_of m c b fun e => hb (Finset.mem_image.mpr ⟨2, Finset.mem_univ _, e.symm⟩)

theorem hF2 (c : Dev nD) (w : Fin cfg2.W) : (dat2 (E4 m) c).arrAt w cfg2.N = E5 m c (Pipeline.arrRef spec2 w) :=
  match w with
  | ⟨0, _⟩ => ((dat2 (E4 m) c).arrAt_in 0 rfl _).trans ((A_eq2 (E4 m) c 0).trans (W5_of m c main_v4 (by decide)).symm)
  | ⟨1, _⟩ => ((dat2 (E4 m) c).arrAt_in 1 rfl _).trans ((A_eq2 (E4 m) c 1).trans (W5_of m c main_v7 (by decide)).symm)
  | ⟨2, _⟩ => ((dat2 (E4 m) c).arrAt_in 2 rfl _).trans ((A_eq2 (E4 m) c 2).trans (W5_of m c main_v8 (by decide)).symm)
  | ⟨3, _⟩ => ((dat2 (E4 m) c).arrAt_in 3 rfl _).trans ((A_eq2 (E4 m) c 3).trans (W5_of m c main_v9 (by decide)).symm)
  | ⟨4, _⟩ => ((dat2 (E4 m) c).arrAt_in 4 rfl _).trans ((A_eq2 (E4 m) c 4).trans (W5_of m c main_v3 (by decide)).symm)
  | ⟨5, _⟩ => (W5_out m c).symm
theorem hrest2 (c : Dev nD) : ∀ b, b ∉ Finset.univ.image (Pipeline.arrRef spec2) → E5 m c b = E4 m c b :=
  fun b hb => W5_of m c b fun e => hb (Finset.mem_image.mpr ⟨5, Finset.mem_univ _, e.symm⟩)

/-! ## The thread state -/

abbrev 𝒱n : Variants := Variants.none
/-- No core owes another anything: no level is assigned. -/
abbrev Lv0 : GSem nD τ sig → Finset Unit := fun _ => ∅
abbrev lvl0 : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)
/-- A host stretch over the unscoped buffers from the contents `W`. -/
abbrev hsegOf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lv0 lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (W5 m c) ∗ ∃ r, prngReg c r)

/-! ## The regions -/

set_option backward.isDefEq.respectTransparency.types false in
/-- The first region: its windows may share an array, so its arrays are split out of the unscoped buffers and put back
    by this certificate's own two lemmas (the node features' share halved between the two windows onto it). -/
def reg0 : Pipeline.RegionSeg (pcfgs (F := F)) adm (pdats m) () defs₀ 𝒱n Lv0 lvl0 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ Lv0 lvl0 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := arrays_of_unscopedBufs0 (E1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (E1 m c))
        ⊢ (unscopedBufs c (E2 m c) : sProp 𝕄) :=
      unscopedBufs_of_arrays0 (E1 m) c (E2 m c) ((dat0 (E1 m) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it; its arrays split out of the unscoped buffers and put back; the generator register into the
    pipeline's invariant and out; nothing owed. -/
def reg1 : Pipeline.RegionSeg (pcfgs (F := F)) adm (pdats m) () defs₀ 𝒱n Lv0 lvl0 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lv0 lvl0 1 fun _ _ => rfl
  pre c := iprop(StableHlo.held (c : Thread nD τ) (Pipeline.ucRefs τ sig) (W3 m c) ∗ Rd c)
  post c := iprop(StableHlo.held (c : Thread nD τ) (Pipeline.ucRefs τ sig) (W4 m c) ∗ Rd c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it; its arrays split out of the unscoped buffers and put back; the generator register into the
    pipeline's invariant and out; nothing owed. -/
def reg2 : Pipeline.RegionSeg (pcfgs (F := F)) adm (pdats m) () defs₀ 𝒱n Lv0 lvl0 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ Lv0 lvl0 2 fun _ _ => rfl
  pre c := iprop(StableHlo.held (c : Thread nD τ) (Pipeline.ucRefs τ sig) (W4 m c) ∗ Rd c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five items in order. -/
abbrev mySegs : List (Pipeline.Seg (pcfgs (F := F)) adm (pdats m) () defs₀ 𝒱n Lv0 lvl0) :=
  [ .host (hsegOf hostOps0 hostOps0_sub hostOps0_fresh (W0 m)),
    .region (reg0 m),
    .host (hsegOf hostOps1 hostOps1_sub hostOps1_fresh (W2 m)),
    .region (reg1 m),
    .region (reg2 m) ]
theorem main_run (c : Dev nD) : main (F := F) c = Pipeline.Seg.run (mySegs m) := (main_chain c).trans (by chain_rfl)

set_option backward.isDefEq.respectTransparency.types false in
/-- THE RUN: from any memory with zero counters every weakly fair execution of @main terminates, nothing faulting, and
    every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱n Lv0 lvl0 m ρ main (mySegs m)
    (fun c Q => by rw [main_run m c])
    (by simp only [mySegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tn m)
    (hch := ⟨fun _ => .rfl, fun _ => .rfl, fun _ => .rfl, fun _ => .rfl, fun _ => .rfl, fun _ => .rfl⟩)
    (hinit := by
      refine Pipeline.initEach Lv0 lvl0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.Spec.lean ====
/-
  The layer's mathematics, as functions on the extended reals, index by index.

  Node features x[b, n, d]; first layer w1[d, h], b1[h]; second layer w2[h, 0], b2[0]; projection gw[d, o], bias gb[o].
    score(b, i, j)  = logistic( (∑ h, max( (∑ d, |x[b,i,d] − x[b,j,d]| · w1[d,h]) + b1[h], 0 ) · w2[h,0]) + b2[0] )
    deg(b, i)       = 0 + ∑ k, score(b, i, k)            dinv = deg^(−1/2)
    proj(b, n, o)   = ∑ d, x[b,n,d] · gw[d,o]
    out(b, i, o)    = (∑ j, ((score(b,i,j) · dinv(b,i)) · dinv(b,j)) · proj(b,j,o)) + gb[o]
  Only sums, products, max, negation and the two named functions occur, each written once in the order both programs
  apply them, so no law of the extended reals beyond re-indexing a finite sum is needed to meet either program.
-/
import Idealize.ShloMosaic.Lib.ValueIdx
import Idealize.ShloMosaic.PureOps.Ideal

noncomputable section

namespace Cert.Spec

open Idealize.ShloMosaic Idealize.ShloMosaic.ValueIdx

abbrev SX : Shape := ⟨3, ![8, 512, 128]⟩
abbrev SW : Shape := ⟨2, ![128, 128]⟩
abbrev SV : Shape := ⟨1, ![128]⟩
abbrev SC : Shape := ⟨2, ![128, 1]⟩
abbrev S1 : Shape := ⟨1, ![1]⟩
abbrev SA : Shape := ⟨3, ![8, 512, 512]⟩
abbrev SD : Shape := ⟨2, ![8, 512]⟩
abbrev SR : Shape := ⟨2, ![1, 128]⟩
abbrev S11 : Shape := ⟨2, ![1, 1]⟩
abbrev SRowF : Shape := ⟨3, ![8, 512, 1]⟩
abbrev SColF : Shape := ⟨3, ![8, 1, 512]⟩

/-- The magnitude of an extended real, as both programs take it. -/
def mag (a : EReal) : EReal := max a (-a)

/-- One pair's score before the logistic function, from the pair's two feature rows. -/
def pre (xi xj : Fin 128 → EReal) (w1 : SW.Idx → EReal) (b1 w2 : Fin 128 → EReal) (b2 : EReal) : EReal :=
  (∑ h : Fin 128, max ((∑ d : Fin 128, mag (xi d - xj d) * w1 (ix2 d h)) + b1 h) 0 * w2 h) + b2

/-- The adjacency, with the small operands in the layout the first kernel's windows hold them (rows of one). -/
def adjK (x : SX.Idx → EReal) (w1 : SW.Idx → EReal) (b1r w2r : SR.Idx → EReal) (b2r : S11.Idx → EReal) : SA.Idx → EReal :=
  fun i => Ideal.logistic (pre (fun d => x (ix3 (i 0) (i 1) d)) (fun d => x (ix3 (i 0) (i 2) d)) w1
    (fun h => b1r (ix2 0 h)) (fun h => w2r (ix2 0 h)) (b2r (ix2 0 0)))

/-- The adjacency, from the arguments as the programs receive them. -/
def adjS (x : SX.Idx → EReal) (w1 : SW.Idx → EReal) (b1 : SV.Idx → EReal) (w2 : SC.Idx → EReal) (b2 : S1.Idx → EReal) : SA.Idx → EReal :=
  fun i => Ideal.logistic (pre (fun d => x (ix3 (i 0) (i 1) d)) (fun d => x (ix3 (i 0) (i 2) d)) w1
    (fun h => b1 (ix1 h)) (fun h => w2 (ix2 h 0)) (b2 (ix1 0)))

theorem adjK_eq_adjS (x : SX.Idx → EReal) (w1 : SW.Idx → EReal) (b1r w2r : SR.Idx → EReal) (b2r : S11.Idx → EReal)
    (b1 : SV.Idx → EReal) (w2 : SC.Idx → EReal) (b2 : S1.Idx → EReal)
    (h1 : ∀ h : Fin 128, b1r (ix2 0 h) = b1 (ix1 h)) (h2 : ∀ h : Fin 128, w2r (ix2 0 h) = w2 (ix2 h 0)) (h3 : b2r (ix2 0 0) = b2 (ix1 0)) :
    adjK x w1 b1r w2r b2r = adjS x w1 b1 w2 b2 := by
  funext i
  simp only [adjK, adjS, h1, h2, h3]

/-- The degree of a node: the zero the sum starts from, plus its row of the adjacency. -/
def degS (a : SA.Idx → EReal) : SD.Idx → EReal := fun i => 0 + ∑ k : Fin 512, a (ix3 (i 0) (i 1) k)

/-- The inverse square root of the degree. -/
def dinvS (a : SA.Idx → EReal) : SD.Idx → EReal := fun i => Ideal.rsqrt (degS a i)

/-- The projected features. -/
def xwS (x : SX.Idx → EReal) (gw : SW.Idx → EReal) : SX.Idx → EReal :=
  fun i => ∑ d : Fin 128, x (ix3 (i 0) (i 1) d) * gw (ix2 d (i 2))

/-- The aggregation as the third kernel sees it: the adjacency, the row factors [b, i, 0], the column factors
    [b, 0, j], the projected features and the bias row [0, o]. -/
def aggK (a : SA.Idx → EReal) (rowF : SRowF.Idx → EReal) (colF : SColF.Idx → EReal) (p : SX.Idx → EReal) (br : SR.Idx → EReal) : SX.Idx → EReal :=
  fun i => (∑ j : Fin 512, ((a (ix3 (i 0) (i 1) j) * rowF (ix3 (i 0) (i 1) 0)) * colF (ix3 (i 0) 0 j)) * p (ix3 (i 0) j (i 2))) + br (ix2 0 (i 2))

/-- The layer's output from the arguments. -/
def outS (x : SX.Idx → EReal) (w1 : SW.Idx → EReal) (b1 : SV.Idx → EReal) (w2 : SC.Idx → EReal) (b2 : S1.Idx → EReal)
    (gw : SW.Idx → EReal) (gb : SV.Idx → EReal) : SX.Idx → EReal :=
  fun i => (∑ j : Fin 512, ((adjS x w1 b1 w2 b2 (ix3 (i 0) (i 1) j) * dinvS (adjS x w1 b1 w2 b2) (ix2 (i 0) (i 1)))
      * dinvS (adjS x w1 b1 w2 b2) (ix2 (i 0) j)) * xwS x gw (ix3 (i 0) j (i 2))) + gb (ix1 (i 2))

/-- The third kernel's aggregation is the layer's output once its operands are what the earlier stages produce. -/
theorem aggK_eq_outS (x : SX.Idx → EReal) (w1 : SW.Idx → EReal) (b1 : SV.Idx → EReal) (w2 : SC.Idx → EReal) (b2 : S1.Idx → EReal)
    (gw : SW.Idx → EReal) (gb : SV.Idx → EReal)
    (a : SA.Idx → EReal) (rowF : SRowF.Idx → EReal) (colF : SColF.Idx → EReal) (p : SX.Idx → EReal) (br : SR.Idx → EReal)
    (ha : a = adjS x w1 b1 w2 b2)
    (hrow : ∀ (b : Fin 8) (i : Fin 512), rowF (ix3 b i 0) = dinvS a (ix2 b i))
    (hcol : ∀ (b : Fin 8) (j : Fin 512), colF (ix3 b 0 j) = dinvS a (ix2 b j))
    (hp : p = xwS x gw) (hb : ∀ o : Fin 128, br (ix2 0 o) = gb (ix1 o)) :
    aggK a rowF colF p br = outS x w1 b1 w2 b2 gw gb := by
  subst ha; subst hp
  funext i
  show (∑ j : Fin 512, _) + _ = (∑ j : Fin 512, _) + _
  rw [hb (i 2)]
  refine congrArg (· + gb (ix1 (i 2))) (Finset.sum_congr rfl fun j _ => ?_)
  rw [hrow (i 0) (i 1), hcol (i 0) j]

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KI.Val0.lean ====
/-
  The first pallas_call's array at the ideal instance: the adjacency. Grid point (b, i, j) writes the 128×128 block of
  rows i·128 … and columns j·128 … of batch b; the 128 blocks tile the array, so the array after the run is, at
  (b, r, s), the logistic function of the pair score of feature rows r and s of batch b.
-/
import proofs.«116299_j17961553231914_1_alg».proof.Proof.KI.Body0
import proofs.«116299_j17961553231914_1_alg».proof.Proof.Spec
import proofs.«116299_j17961553231914_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace AdjValue

/-! ## The layout operations of the body, each read at one index -/

/-- Row p of the first block, spread along the second axis of the [128,128,128] difference tensor. -/
theorem left_rows_apply (x0 : Vec Ideal S1x128x128 .f32) (h1 : S1x128x128.ShapeCasts S128x128) (h2 : S128x128.ShapeCasts S128x1x128)
    (h3 : S128x1x128.Broadcasts S128x128x128) (p q d : Fin 128) :
    broadcastTo S128x128x128 (shapeCast S128x1x128 (shapeCast S128x128 x0 h1) h2) h3 (ix3 p q d) = x0 (ix3 0 p d) := by
  refine (broadcastTo_apply _ h3 (ix3 p q d) (ix3 p 0 d) (fun a => match a with
    | ⟨0, _⟩ => by show p.val = if (128 : Nat) = 1 then 0 else p.val; rfl
    | ⟨1, _⟩ => by show (0 : Nat) = if (1 : Nat) = 1 then 0 else q.val; rfl
    | ⟨2, _⟩ => by show d.val = if (128 : Nat) = 1 then 0 else d.val; rfl)).trans ?_
  refine (shapeCast_apply _ h2 (ix3 p 0 d) (ix2 p d) (by
    rw [Shape.rowMajor_val_two, Shape.rowMajor_val_three]
    show p.val * 128 + d.val = (p.val * 1 + 0) * 128 + d.val
    omega)).trans ?_
  exact shapeCast_apply _ h1 (ix2 p d) (ix3 0 p d) (by
    rw [Shape.rowMajor_val_three, Shape.rowMajor_val_two]
    show (0 * 128 + p.val) * 128 + d.val = p.val * 128 + d.val
    omega)

/-- Row q of the second block, spread along the first axis of the difference tensor. -/
theorem right_rows_apply (x1 : Vec Ideal S1x128x128 .f32) (h1 : S1x128x128.ShapeCasts S128x128) (h2 : S128x128.ShapeCasts S1x128x128)
    (h3 : S1x128x128.Broadcasts S128x128x128) (p q d : Fin 128) :
    broadcastTo S128x128x128 (shapeCast S1x128x128 (shapeCast S128x128 x1 h1) h2) h3 (ix3 p q d) = x1 (ix3 0 q d) := by
  refine (broadcastTo_apply _ h3 (ix3 p q d) (ix3 0 q d) (fun a => match a with
    | ⟨0, _⟩ => by show (0 : Nat) = if (1 : Nat) = 1 then 0 else p.val; rfl
    | ⟨1, _⟩ => by show q.val = if (128 : Nat) = 1 then 0 else q.val; rfl
    | ⟨2, _⟩ => by show d.val = if (128 : Nat) = 1 then 0 else d.val; rfl)).trans ?_
  exact congrFun (shapeCast_shapeCast x1 h1 h2) (ix3 0 q d)

/-- The pair (p, q) of a row of the first block and a row of the second, as a row of the flattened [16384, 128] operand. -/
abbrev pairIx (p q : Fin 128) : Fin 16384 := ⟨p.val * 128 + q.val, by omega⟩

/-- The [128,128,128] tensor flattened to [16384,128]: row p·128 + q is the pair (p, q). -/
theorem flat_pairs_apply {α : Type} (v : S128x128x128.Idx → α) (h : S128x128x128.ShapeCasts S16384x128) (p q d : Fin 128) :
    shapeCast S16384x128 v h (ix2 (pairIx p q) d) = v (ix3 p q d) :=
  shapeCast_apply v h (ix2 (pairIx p q) d) (ix3 p q d) (by
    rw [Shape.rowMajor_val_three, Shape.rowMajor_val_two]
    rfl)

/-- A [1,128] row spread over the 16384 rows. -/
theorem row_spread_apply (b : Vec Ideal S1x128 .f32) (h1 : S1x128.ShapeCasts S1x128) (h2 : S1x128.Broadcasts S16384x128)
    (r : Fin 16384) (k : Fin 128) :
    broadcastTo S16384x128 (shapeCast S1x128 b h1) h2 (ix2 r k) = b (ix2 0 k) := by
  rw [shapeCast_self]
  exact broadcastTo_apply _ h2 (ix2 r k) (ix2 0 k) (fun a => match a with
    | ⟨0, _⟩ => by show (0 : Nat) = if (1 : Nat) = 1 then 0 else r.val; rfl
    | ⟨1, _⟩ => by show k.val = if (128 : Nat) = 1 then 0 else k.val; rfl)

/-- The sum along the 128 lanes of row r. -/
theorem lane_sum_apply (v : FVec Ideal S16384x128 .f32) (h : S16384x128.Reduces [1] S16384) (hφ : FKind.Formats .f32)
    (hacc : (0x00000000#32 : BitVec 32) = FKind.add.neutral .f32 hφ) (r : Fin 16384) :
    multiReduction .add [1] S16384 v 0x00000000#32 h hφ hacc (ix1 r) = ∑ k : Fin 128, v (ix2 r k) := by
  refine (Ideal.multiReduction_add_single v 0x00000000#32 h hφ hacc (ix1 r)).trans ?_
  show ∑ k : Fin 128, v (h.lift (ix1 r) k) = _
  refine Finset.sum_congr rfl fun k _ => congrArg v ?_
  funext a; apply Fin.ext
  match a with
  | ⟨0, _⟩ => rfl
  | ⟨1, _⟩ => rfl

/-! ## The matrix product's operand coordinates: the left operand's row is the output's, its column the contracted
    one; the right operand's row is the contracted one, its column the output's -/

theorem pairs_dot_lhs_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem pairs_dot_lhs_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem pairs_dot_rhs_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem pairs_dot_rhs_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- The first layer of a pair's score: the product of the flattened operand with the weight, read at (r, k). -/
theorem first_layer_apply (a : FVec Ideal S16384x128 .bf16) (w : FVec Ideal S128x128 .bf16) (r : Fin 16384) (k : Fin 128) :
    matmul dot_S16384x128_S128x128_S16384x128_1_0_0_1_n_n none a w (constant (F := Ideal) S16384x128 .f32 0x00000000#32) (ix2 r k)
      = ∑ d : Fin 128, a (ix2 r d) * w (ix2 d k) :=
  Cert.Lib.Dot2.matmul_zero_ix2 dot_S16384x128_S128x128_S16384x128_1_0_0_1_n_n none rfl rfl
    pairs_dot_lhs_0 pairs_dot_lhs_1 pairs_dot_rhs_0 pairs_dot_rhs_1 a w r k

/-! ## The body's payload at one entry -/

/-- The logistic function of a vector, at an index. -/
theorem logistic_apply {s : Shape} {φ : FTy} (v : FVec Ideal s φ) (i : s.Idx) : logistic v i = Ideal.logistic (v i) := rfl
/-- The magnitude of a vector, at an index. -/
theorem absf_apply {s : Shape} {φ : FTy} (v : FVec Ideal s φ) (i : s.Idx) : absf v i = max (v i) (-(v i)) := rfl

/-- Entry (p, q) of what the body stores: the logistic function of the score of row p of the first block against row q of
    the second. The stored block is the [128,128] score matrix with a unit axis in front; the matrix is the flat vector of
    16384 pair scores re-laid, pair (p, q) at position p·128 + q; a pair's score is the lane sum of the rectified first
    layer times the second layer's row, plus the scalar bias; the first layer at (pair, k) is the product of the flattened
    magnitudes |x0[p, d] − x1[q, d]| with the weight, plus the bias row. -/
theorem score_apply (x0 x1 : Vec Ideal S1x128x128 .f32) (w1 : Vec Ideal S128x128 .f32) (b1 w2 : Vec Ideal S1x128 .f32)
    (b2 : Vec Ideal S1x1 .f32) (p q : Fin 128) :
    k0_pay1 x0 x1 w1 b1 w2 b2 (ix3 0 p q)
      = Ideal.logistic (Cert.Spec.pre (fun d => x0 (ix3 0 p d)) (fun d => x1 (ix3 0 q d)) w1
          (fun h => b1 (ix2 0 h)) (fun h => w2 (ix2 0 h)) (b2 (ix2 0 0))) := by
  unfold k0_pay1
  dsimp only
  refine (shapeCast_apply _ _ (ix3 0 p q) (ix2 p q) (by
    rw [Shape.rowMajor_val_two, Shape.rowMajor_val_three]
    show p.val * 128 + q.val = (0 * 128 + p.val) * 128 + q.val
    omega)).trans ?_
  refine (logistic_apply _ _).trans (congrArg Ideal.logistic ?_)
  refine (shapeCast_apply _ _ (ix2 p q) (ix1 (pairIx p q)) (by
    rw [Shape.rowMajor_val_one, Shape.rowMajor_val_two]
    rfl)).trans ?_
  refine (addf_apply _ _ _).trans ?_
  unfold Cert.Spec.pre
  refine congrArg₂ (· + ·) ?_ ?_
  · refine (lane_sum_apply _ _ _ _ (pairIx p q)).trans ?_
    refine Finset.sum_congr rfl fun k _ => ?_
    refine (mulf_apply _ _ _).trans (congrArg₂ (· * ·) ?_ (row_spread_apply w2 _ _ (pairIx p q) k))
    refine (maximumf_apply _ _ _).trans (congrArg₂ max ?_ ?_)
    · refine (addf_apply _ _ _).trans (congrArg₂ (· + ·) ?_ (row_spread_apply b1 _ _ (pairIx p q) k))
      refine (first_layer_apply _ _ (pairIx p q) k).trans ?_
      refine Finset.sum_congr rfl fun d _ => ?_
      refine congrArg₂ (· * ·) ?_ (truncf_apply (φ := .f32) (ψ := .bf16) w1 bitsLt_bf16_f32 (ix2 d k))
      refine (flat_pairs_apply _ _ p q d).trans ?_
      refine (truncf_apply (φ := .f32) (ψ := .bf16) _ bitsLt_bf16_f32 (ix3 p q d)).trans ?_
      refine (absf_apply _ _).trans ?_
      unfold Cert.Spec.mag
      refine congrArg (fun a : EReal => max a (-a)) ?_
      exact (subf_apply _ _ _).trans (congrArg₂ (· - ·) (left_rows_apply x0 _ _ _ p q d) (right_rows_apply x1 _ _ _ p q d))
    · show Ideal.ofBits .f32 0x00000000#32 = 0
      exact Ideal.ofBits_zero_f32
  · refine (broadcast_apply _ _).trans ?_
    unfold extractAt
    exact congrArg b2 (funext fun a => Fin.ext (match a with | ⟨0, _⟩ => rfl | ⟨1, _⟩ => rfl))

/-! ## From the stored block to the array -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps over the grid. Point t is (b, i, j) = (t / 16, t / 4 mod 4, t mod 4); the output's block index is
    (b, i, j), the first row block's (b, i, 0), the second's (b, j, 0), and the four small operands are whole. -/
theorem block_indices : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = win0_6.index t (2 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 16 ∧ win0_6.index t (1 : Fin 3) = t.val / 4 % 4
    ∧ win0_6.index t (2 : Fin 3) = t.val % 4 :=
  (by decide +kernel : ∀ t : Fin grid0.N, _)

/-- An entry of the stored block is the adjacency at an array index e, when the first block's row is row e₁ of batch e₀,
    the second block's row is row e₂ of that batch, and the small operands are the arrays themselves. -/
theorem entry_eq (x : S8x512x128.Idx → EReal) (w1 : S128x128.Idx → EReal) (b1 w2 : S1x128.Idx → EReal) (b2 : S1x1.Idx → EReal)
    (x0 x1 : Vec Ideal S1x128x128 .f32) (w1' : Vec Ideal S128x128 .f32) (b1' w2' : Vec Ideal S1x128 .f32) (b2' : Vec Ideal S1x1 .f32)
    (e : S8x512x512.Idx) (p q : Fin 128)
    (h0 : ∀ d : Fin 128, x0 (ix3 0 p d) = x (ix3 (e 0) (e 1) d))
    (h1 : ∀ d : Fin 128, x1 (ix3 0 q d) = x (ix3 (e 0) (e 2) d))
    (hw1 : w1' = w1) (hb1 : b1' = b1) (hw2 : w2' = w2) (hb2 : b2' = b2) :
    k0_pay1 x0 x1 w1' b1' w2' b2' (ix3 0 p q) = Cert.Spec.adjK x w1 b1 w2 b2 e := by
  subst hw1 hb1 hw2 hb2
  refine (score_apply x0 x1 w1' b1' w2' b2' p q).trans ?_
  exact congrArg₂ (fun a b => Ideal.logistic (Cert.Spec.pre a b w1' (fun h => b1' (ix2 0 h)) (fun h => w2' (ix2 0 h)) (b2' (ix2 0 0))))
    (funext h0) (funext h1)

/-- The first row block at point t, entry y: the node features at block index × block size + y on each axis. -/
theorem rows_block_apply (c : Dev nD) (t : Fin cfg0.N) (y : S1x128x128.Idx) (k : S8x512x128.Idx)
    (h0 : (k 0).val = win0_0.index t (0 : Fin 3) * 1 + 1 * (y 0).val)
    (h1 : (k 1).val = win0_0.index t (1 : Fin 3) * 128 + 1 * (y 1).val)
    (h2 : (k 2).val = win0_0.index t (2 : Fin 3) * 128 + 1 * (y 2).val) :
    (iblk0 V c 0 t : Vec Ideal S1x128x128 .f32) y = (V c main_arg0 : S8x512x128.Idx → EReal) k := by
  show V c main_arg0 (((cfg0.win 0).blk t).view.emb y) = V c main_arg0 k
  refine congrArg _ (funext fun a => Fin.ext ?_)
  match a with
  | ⟨0, _⟩ => exact h0.symm
  | ⟨1, _⟩ => exact h1.symm
  | ⟨2, _⟩ => exact h2.symm

/-- The second row block likewise. -/
theorem cols_block_apply (c : Dev nD) (t : Fin cfg0.N) (y : S1x128x128.Idx) (k : S8x512x128.Idx)
    (h0 : (k 0).val = win0_1.index t (0 : Fin 3) * 1 + 1 * (y 0).val)
    (h1 : (k 1).val = win0_1.index t (1 : Fin 3) * 128 + 1 * (y 1).val)
    (h2 : (k 2).val = win0_1.index t (2 : Fin 3) * 128 + 1 * (y 2).val) :
    (iblk0 V c 1 t : Vec Ideal S1x128x128 .f32) y = (V c main_arg0 : S8x512x128.Idx → EReal) k := by
  show V c main_arg0 (((cfg0.win 1).blk t).view.emb y) = V c main_arg0 k
  refine congrArg _ (funext fun a => Fin.ext ?_)
  match a with
  | ⟨0, _⟩ => exact h0.symm
  | ⟨1, _⟩ => exact h1.symm
  | ⟨2, _⟩ => exact h2.symm

/-- The first layer's weight block is the whole weight at every point. -/
theorem weight_block (c : Dev nD) (t : Fin cfg0.N) :
    (iblk0 V c 2 t : Vec Ideal S128x128 .f32) = (V c main_arg1 : S128x128.Idx → EReal) := by
  obtain ⟨-, -, -, -, -, -, e0, e1, -⟩ := block_indices t
  funext j
  show V c main_arg1 (((cfg0.win 2).blk t).view.emb j) = V c main_arg1 j
  refine congrArg _ (funext fun a => Fin.ext ?_)
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The first layer's bias row is whole at every point. -/
theorem bias_row_block (c : Dev nD) (t : Fin cfg0.N) :
    (iblk0 V c 3 t : Vec Ideal S1x128 .f32) = (V c main_v0 : S1x128.Idx → EReal) := by
  obtain ⟨-, -, -, -, -, -, -, -, e0, e1, -⟩ := block_indices t
  funext j
  show V c main_v0 (((cfg0.win 3).blk t).view.emb j) = V c main_v0 j
  refine congrArg _ (funext fun a => Fin.ext ?_)
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- The second layer's weight row is whole at every point. -/
theorem out_row_block (c : Dev nD) (t : Fin cfg0.N) :
    (iblk0 V c 4 t : Vec Ideal S1x128 .f32) = (V c main_v1 : S1x128.Idx → EReal) := by
  obtain ⟨-, -, -, -, -, -, -, -, -, -, e0, e1, -⟩ := block_indices t
  funext j
  show V c main_v1 (((cfg0.win 4).blk t).view.emb j) = V c main_v1 j
  refine congrArg _ (funext fun a => Fin.ext ?_)
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- The scalar bias is whole at every point. -/
theorem scalar_block (c : Dev nD) (t : Fin cfg0.N) :
    (iblk0 V c 5 t : Vec Ideal S1x1 .f32) = (V c main_v2 : S1x1.Idx → EReal) := by
  obtain ⟨-, -, -, -, -, -, -, -, -, -, -, -, e0, e1, -⟩ := block_indices t
  funext j
  show V c main_v2 (((cfg0.win 5).blk t).view.emb j) = V c main_v2 j
  refine congrArg _ (funext fun a => Fin.ext ?_)
  match a with
  | ⟨0, _⟩ => show win0_5.index t (0 : Fin 2) * 1 + 1 * (j 0).val = (j 0).val; rw [e0]; omega
  | ⟨1, _⟩ => show win0_5.index t (1 : Fin 2) * 1 + 1 * (j 1).val = (j 1).val; rw [e1]; omega

/-- What grid point t writes back is its block of the adjacency of the five arrays: entry (0, p, q) of the stored block
    lands on array index (b, i·128 + p, j·128 + q), its first operand's row p is row i·128 + p of batch b and its second
    operand's row q is row j·128 + q of that batch. -/
theorem flushed_block (c : Dev nD) (t : Fin cfg0.N) :
    (dat0 (F := Ideal) V c).flushed 6 t = ((cfg0.win 6).blk t).view.read (Elt Ideal)
      (Cert.Spec.adjK (V c main_arg0) (V c main_arg1) (V c main_v0) (V c main_v1) (V c main_v2) : S8x512x512.Idx → EReal) := by
  show (cfg0.win 6).cut (grid0.coords t) ((dat0 V c).after 6 t) = _
  rw [after0_6]
  unfold out0_6
  rw [View.canon_unit_zero zeros3]
  simp only [View.ld_unit_zero (S := S1x128x128) zeros3, View.ld_unit_zero (S := S128x128) zeros2,
    View.ld_unit_zero (S := S1x128) zeros2, View.ld_unit_zero (S := S1x1) zeros2]
  obtain ⟨a00, a01, a02, a10, a11, a12, -⟩ := block_indices t
  funext y
  have hy0 : (y 0).val < 1 := (y 0).isLt
  have hy1 : (y 1).val < 128 := (y 1).isLt
  have hy2 : (y 2).val < 128 := (y 2).isLt
  have ey : win0_6.xinj (grid0.coords t) y = ix3 0 ⟨(y 1).val, hy1⟩ ⟨(y 2).val, hy2⟩ := funext fun a => Fin.ext (by
    match a with
    | ⟨0, _⟩ => show (y 0).val = 0; omega
    | ⟨1, _⟩ => rfl
    | ⟨2, _⟩ => rfl)
  show k0_pay1 (iblk0 V c 0 t) (iblk0 V c 1 t) (iblk0 V c 2 t) (iblk0 V c 3 t) (iblk0 V c 4 t) (iblk0 V c 5 t)
        (win0_6.xinj (grid0.coords t) y)
      = Cert.Spec.adjK (V c main_arg0) (V c main_arg1) (V c main_v0) (V c main_v1) (V c main_v2)
        (((cfg0.win 6).blk t).view.emb y)
  rw [ey]
  refine entry_eq (V c main_arg0) (V c main_arg1) (V c main_v0) (V c main_v1) (V c main_v2) _ _ _ _ _ _ _ _ _
    (fun d => rows_block_apply V c t _ _ ?_ ?_ ?_) (fun d => cols_block_apply V c t _ _ ?_ ?_ ?_)
    (weight_block V c t) (bias_row_block V c t) (out_row_block V c t) (scalar_block V c t)
  · show win0_6.index t (0 : Fin 3) * 1 + 1 * (y 0).val = win0_0.index t (0 : Fin 3) * 1 + 1 * 0
    rw [a00]; omega
  · show win0_6.index t (1 : Fin 3) * 128 + 1 * (y 1).val = win0_0.index t (1 : Fin 3) * 128 + 1 * (y 1).val
    rw [a01]
  · show d.val = win0_0.index t (2 : Fin 3) * 128 + 1 * d.val
    rw [a02]; omega
  · show win0_6.index t (0 : Fin 3) * 1 + 1 * (y 0).val = win0_1.index t (0 : Fin 3) * 1 + 1 * 0
    rw [a10]; omega
  · show win0_6.index t (2 : Fin 3) * 128 + 1 * (y 2).val = win0_1.index t (1 : Fin 3) * 128 + 1 * (y 2).val
    rw [a11]
  · show d.val = win0_1.index t (2 : Fin 3) * 128 + 1 * d.val
    rw [a12]; omega

/-- Every index (b, r, s) of the array lies in the block of grid point b·16 + (r / 128)·4 + s / 128. -/
theorem blocks_cover (i : S8x512x512.Idx) :
    ∃ t : Fin cfg0.N, (cfg0.win 6).flush t = true ∧ i ∈ ((cfg0.win 6).blk t).view.set := by
  have h0 : (i 0).val < 8 := (i 0).isLt
  have h1 : (i 1).val < 512 := (i 1).isLt
  have h2 : (i 2).val < 512 := (i 2).isLt
  obtain ⟨t, ht⟩ : ∃ t : Fin cfg0.N, t.val = (i 0).val * 16 + (i 1).val / 128 * 4 + (i 2).val / 128 :=
    ⟨⟨(i 0).val * 16 + (i 1).val / 128 * 4 + (i 2).val / 128, by show _ < grid0.N; rw [N_0]; omega⟩, rfl⟩
  obtain ⟨-, -, -, -, -, -, -, -, -, -, -, -, -, -, c0, c1, c2⟩ := block_indices t
  refine ⟨t, flush0_6 t, ?_⟩
  show i ∈ ((View.whole main_v4).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + 1
    rw [c0, ht]; omega
  | ⟨1, _⟩ =>
    show win0_6.index t (1 : Fin 3) * 128 ≤ (i 1).val ∧ (i 1).val < win0_6.index t (1 : Fin 3) * 128 + 128
    rw [c1, ht]; omega
  | ⟨2, _⟩ =>
    show win0_6.index t (2 : Fin 3) * 128 ≤ (i 2).val ∧ (i 2).val < win0_6.index t (2 : Fin 3) * 128 + 128
    rw [c2, ht]; omega

end AdjValue

/-- The adjacency array the first pipeline leaves, index by index, from the five arrays its windows read. -/
theorem adj_array (c : Dev nD) :
    (dat0 (F := Ideal) V c).arrAt 6 cfg0.N
      = (Cert.Spec.adjK (V c main_arg0) (V c main_arg1) (V c main_v0) (V c main_v1) (V c main_v2) : S8x512x512.Idx → EReal) := by
  exact (dat0 (F := Ideal) V c).arrAt_eq_of_cover 6 _ (fun t _ => AdjValue.flushed_block V c t) AdjValue.blocks_cover

end Cert.KernelIdeal.Hand

end
-- ==== Proof.KI.Val1.lean ====
/-
  The second pallas_call's array at the ideal instance: the projected features. Grid point b writes slab b, the 512×128
  product of x[b] with the weight; the eight slabs tile the array, so the array after the run is, at (b, n, o), the sum
  over d of x[b, n, d] · gw[d, o].
-/
import proofs.«116299_j17961553231914_1_alg».proof.Proof.KI.Body1
import proofs.«116299_j17961553231914_1_alg».proof.Proof.Spec
import proofs.«116299_j17961553231914_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The left operand of the slab product is read, on its row axis, at the output's row. -/
theorem xw_lhs_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl

/-- The left operand is read, on its column axis, at the contracted position. -/
theorem xw_lhs_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q

/-- The right operand is read, on its row axis, at the contracted position. -/
theorem xw_rhs_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q

/-- The right operand is read, on its column axis, at the output's column. -/
theorem xw_rhs_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The body's payload at row n, column o of its one slab: the slab's row n against the weight's column o, the two
    narrowings being the identity on the extended reals and the two casts only dropping and restoring the unit axis. -/
theorem xw_pay_apply (x0 : Vec Ideal S1x512x128 .f32) (gw : Vec Ideal S128x128 .f32) (n : Fin 512) (o : Fin 128) :
    k1_pay1 x0 gw (ix3 (0 : Fin 1) n o) = ∑ d : Fin 128, x0 (ix3 (0 : Fin 1) n d) * gw (ix2 d o) := by
  unfold k1_pay1
  refine (shapeCast_ab_1ab_apply _ _ (0 : Fin 1) n o).trans ?_
  refine (Cert.Lib.Dot2.matmul_zero_ix2 dot_S512x128_S128x128_S512x128_1_0_0_1_n_n none rfl rfl xw_lhs_0 xw_lhs_1 xw_rhs_0 xw_rhs_1 _ _ n o).trans ?_
  refine Finset.sum_congr rfl fun d _ => ?_
  rw [truncf_apply, truncf_apply, shapeCast_1ab_ab_apply]

variable (V : (c : Dev nD) → (b : Ref sig .tc) → Buf (Elt Ideal) ((c : Thread nD τ).loc b))

theorem xw_zeros3 : (![0, 0, 0] : Fin 3 → Nat) = fun _ => 0 := funext fun a => by fin_cases a <;> rfl
theorem xw_zeros2 : (![0, 0] : Fin 2 → Nat) = fun _ => 0 := funext fun a => by fin_cases a <;> rfl

/-- The three index maps over the grid: the input slab and the output slab sit at block (t, 0, 0), the weight at (0, 0). -/
theorem xw_idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- A slab's payload against the specification: when the slab is rows (b, ·, ·) of x and the weight block is the whole
    weight, entry (0, n, o) of the payload is the projected feature at (b, n, o). -/
theorem xw_slab_point (x0 : Vec Ideal S1x512x128 .f32) (gw : Vec Ideal S128x128 .f32)
    (X : S8x512x128.Idx → EReal) (W : S128x128.Idx → EReal) (b : Fin 8)
    (hx : ∀ (n : Fin 512) (d : Fin 128), x0 (ix3 (0 : Fin 1) n d) = X (ix3 b n d))
    (hw : ∀ (d : Fin 128) (o : Fin 128), gw (ix2 d o) = W (ix2 d o)) (n : Fin 512) (o : Fin 128) :
    k1_pay1 x0 gw (ix3 (0 : Fin 1) n o) = Cert.Spec.xwS X W (ix3 b n o) := by
  rw [xw_pay_apply]
  show _ = ∑ d : Fin 128, X (ix3 b n d) * W (ix2 d o)
  exact Finset.sum_congr rfl fun d _ => by rw [hx n d, hw d o]

/-- What grid point t writes back is slab t of the projected features: the payload's entry (0, n, o) is the sum over d of
    the input slab's (0, n, d), which is x at (t, n, d), against the weight block's (d, o), which is the weight's. -/
theorem xw_flushed_eq (c : Dev nD) (t : Fin cfg1.N) :
    (dat1 (F := Ideal) V c).flushed 2 t
      = ((cfg1.win 2).blk t).view.read (Elt Ideal) (Cert.Spec.xwS (V c main_arg0) (V c main_arg5) : S8x512x128.Idx → EReal) := by
  show (cfg1.win 2).cut (grid1.coords t) ((dat1 V c).after 2 t) = _
  rw [after1_2]
  unfold out1_2
  rw [View.canon_unit_zero xw_zeros3]
  simp only [View.ld_unit_zero (S := S1x512x128) xw_zeros3, View.ld_unit_zero (S := S128x128) xw_zeros2]
  obtain ⟨e0, e1, e2, e3, e4, e5, e6, e7⟩ := xw_idx_facts t
  have hN : cfg1.N = 8 := N_1
  have hb : t.val < 8 := by have := t.isLt; omega
  funext j
  have h0 : (j 0).val < 1 := (j 0).isLt
  have h1 : (j 1).val < 512 := (j 1).isLt
  have h2 : (j 2).val < 128 := (j 2).isLt
  show k1_pay1 (iblk1 V c 0 t) (iblk1 V c 1 t) ((win1 2).xinj (grid1.coords t) j)
    = Cert.Spec.xwS (V c main_arg0) (V c main_arg5) (((cfg1.win 2).blk t).view.emb j)
  have hL : (win1 2).xinj (grid1.coords t) j = ix3 (0 : Fin 1) (⟨(j 1).val, h1⟩ : Fin 512) (⟨(j 2).val, h2⟩ : Fin 128) :=
    funext fun a => Fin.ext (by
      match a with
      | ⟨0, _⟩ => show (j 0).val = 0; omega
      | ⟨1, _⟩ => rfl
      | ⟨2, _⟩ => rfl)
  have hR : ((cfg1.win 2).blk t).view.emb j = ix3 (⟨t.val, hb⟩ : Fin 8) (⟨(j 1).val, h1⟩ : Fin 512) (⟨(j 2).val, h2⟩ : Fin 128) :=
    funext fun a => Fin.ext (by
      match a with
      | ⟨0, _⟩ => show win1_2.index t (0 : Fin 3) * 1 + 1 * (j 0).val = t.val; omega
      | ⟨1, _⟩ => show win1_2.index t (1 : Fin 3) * 512 + 1 * (j 1).val = (j 1).val; omega
      | ⟨2, _⟩ => show win1_2.index t (2 : Fin 3) * 128 + 1 * (j 2).val = (j 2).val; omega)
  rw [hL, hR]
  refine xw_slab_point _ _ _ _ (⟨t.val, hb⟩ : Fin 8) ?_ ?_ _ _
  · intro n d
    show (V c main_arg0 : S8x512x128.Idx → EReal) (((cfg1.win 0).blk t).view.emb (ix3 (0 : Fin 1) n d))
      = (V c main_arg0 : S8x512x128.Idx → EReal) (ix3 (⟨t.val, hb⟩ : Fin 8) n d)
    refine congrArg (V c main_arg0 : S8x512x128.Idx → EReal) (funext fun a => Fin.ext ?_)
    match a with
    | ⟨0, _⟩ => show win1_0.index t (0 : Fin 3) * 1 + 1 * 0 = t.val; omega
    | ⟨1, _⟩ => show win1_0.index t (1 : Fin 3) * 512 + 1 * n.val = n.val; omega
    | ⟨2, _⟩ => show win1_0.index t (2 : Fin 3) * 128 + 1 * d.val = d.val; omega
  · intro d o
    show (V c main_arg5 : S128x128.Idx → EReal) (((cfg1.win 1).blk t).view.emb (ix2 d o))
      = (V c main_arg5 : S128x128.Idx → EReal) (ix2 d o)
    refine congrArg (V c main_arg5 : S128x128.Idx → EReal) (funext fun a => Fin.ext ?_)
    match a with
    | ⟨0, _⟩ => show win1_1.index t (0 : Fin 2) * 128 + 1 * d.val = d.val; omega
    | ⟨1, _⟩ => show win1_1.index t (1 : Fin 2) * 128 + 1 * o.val = o.val; omega

/-- An index of the array is in grid point t's block iff each coordinate is in the block's range on its axis. -/
theorem xw_mem_blk (t : Fin cfg1.N) (i : S8x512x128.Idx) :
    i ∈ ((cfg1.win 2).blk t).view.set ↔ ∀ a : Fin 3, win1_2.index t a * S1x512x128.size a ≤ (i a).val
      ∧ (i a).val < win1_2.index t a * S1x512x128.size a + S1x512x128.size a := by
  show i ∈ ((View.whole main_v9).slice (win1_2.rect t)).set ↔ _
  rw [View.set_slice_whole, Rect.mem_set_unit]
  exact Iff.rfl

/-- The eight slabs tile the array: index (b, n, o) lies in the block of grid point b. -/
theorem xw_slabs_cover (i : S8x512x128.Idx) :
    ∃ t : Fin cfg1.N, (cfg1.win 2).flush t = true ∧ i ∈ ((cfg1.win 2).blk t).view.set := by
  have hN : cfg1.N = 8 := N_1
  have hi0 : (i 0).val < 8 := (i 0).isLt
  have hi1 : (i 1).val < 512 := (i 1).isLt
  have hi2 : (i 2).val < 128 := (i 2).isLt
  obtain ⟨t, ht⟩ : ∃ t : Fin cfg1.N, t.val = (i 0).val := ⟨⟨(i 0).val, by omega⟩, rfl⟩
  obtain ⟨-, -, -, -, -, e5, e6, e7⟩ := xw_idx_facts t
  refine ⟨t, flush1_2 t, ?_⟩
  rw [xw_mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 128 ≤ (i 2).val ∧ (i 2).val < win1_2.index t (2 : Fin 3) * 128 + 128; omega

/-- The projected-features array the second pipeline leaves, index by index. -/
theorem xw_array (c : Dev nD) :
    (dat1 (F := Ideal) V c).arrAt 2 cfg1.N = (Cert.Spec.xwS (V c main_arg0) (V c main_arg5) : S8x512x128.Idx → EReal) :=
  (dat1 (F := Ideal) V c).arrAt_eq_of_cover 2 (Cert.Spec.xwS (V c main_arg0) (V c main_arg5) : S8x512x128.Idx → EReal)
    (fun t _ => xw_flushed_eq V c t) xw_slabs_cover

end Cert.KernelIdeal.Hand

end
-- ==== Proof.KI.Val2.lean ====
/-
  The third pallas_call's array at the ideal instance: the aggregated output. Grid point (b, i) writes the 128×128 block
  of rows i·128 … of batch b; the thirty-two blocks tile the array, so the array after the run is, at (b, r, o), the sum
  over j of ((adj[b, r, j] · rowF[b, r, 0]) · colF[b, 0, j]) · proj[b, j, o], plus the bias row at o.
-/
import proofs.«116299_j17961553231914_1_alg».proof.Proof.KI.Body2
import proofs.«116299_j17961553231914_1_alg».proof.Proof.Spec
import proofs.«116299_j17961553231914_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The product's left operand is read along its row and the contracted column. -/
theorem aggDot_lhs_0 (i : S128x128.Idx) (q : dot_S128x512_S512x128_S128x128_1_0_0_1_n_n.contr.Idx) :
    (dot_S128x512_S512x128_S128x128_1_0_0_1_n_n.lhsIdx i q 0).val = (i 0).val := by
  unfold DotDims.lhsIdx
  rw [dif_neg (show ¬(0 : Fin S128x512.rank) ∈ dot_S128x512_S512x128_S128x128_1_0_0_1_n_n.lhsBatch by decide), dif_pos (show (0 : Fin S128x512.rank) ∈ dot_S128x512_S512x128_S128x128_1_0_0_1_n_n.lhsNonContracting by decide)]
  rfl
theorem aggDot_lhs_1 (i : S128x128.Idx) (q : dot_S128x512_S512x128_S128x128_1_0_0_1_n_n.contr.Idx) :
    (dot_S128x512_S512x128_S128x128_1_0_0_1_n_n.lhsIdx i q 1).val = (q ⟨0, by decide⟩).val :=
  dot_S128x512_S512x128_S128x128_1_0_0_1_n_n.lhsIdx_val_of_single rfl i q
theorem aggDot_rhs_0 (i : S128x128.Idx) (q : dot_S128x512_S512x128_S128x128_1_0_0_1_n_n.contr.Idx) :
    (dot_S128x512_S512x128_S128x128_1_0_0_1_n_n.rhsIdx i q 0).val = (q ⟨0, by decide⟩).val :=
  dot_S128x512_S512x128_S128x128_1_0_0_1_n_n.rhsIdx_val_of_single rfl i q
theorem aggDot_rhs_1 (i : S128x128.Idx) (q : dot_S128x512_S512x128_S128x128_1_0_0_1_n_n.contr.Idx) :
    (dot_S128x512_S512x128_S128x128_1_0_0_1_n_n.rhsIdx i q 1).val = (i 1).val := by
  unfold DotDims.rhsIdx
  rw [dif_neg (show ¬(1 : Fin S512x128.rank) ∈ dot_S128x512_S512x128_S128x128_1_0_0_1_n_n.rhsBatch by decide), dif_pos (show (1 : Fin S512x128.rank) ∈ dot_S128x512_S512x128_S128x128_1_0_0_1_n_n.rhsNonContracting by decide)]
  rfl

/-- A column [a, 1] broadcast over b columns reads, at (p, c), the column's entry of row p. -/
theorem agg_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The matrix product of the payload at (r, o): the plain sum over the 512 contracted positions. -/
theorem aggDot_apply {φ₁ φ₂ : FTy} (l : FVec Ideal S128x512 φ₁) (m : FVec Ideal S512x128 φ₂) (r o : Fin 128) :
    matmul dot_S128x512_S512x128_S128x128_1_0_0_1_n_n none l m (constant (F := Ideal) S128x128 .f32 0x00000000#32) (ix2 r o)
      = ∑ j : Fin 512, l (ix2 r j) * m (ix2 j o) :=
  Cert.Lib.Dot2.matmul_zero_ix2 dot_S128x512_S512x128_S128x128_1_0_0_1_n_n none rfl rfl aggDot_lhs_0 aggDot_lhs_1 aggDot_rhs_0 aggDot_rhs_1 l m r o

/-- The body's payload at entry (r, o) of its block: the scaled strip's row r times the slab's column o, plus the bias at o. -/
theorem agg_pay_apply (a : Vec Ideal S1x128x512 .f32) (rf : Vec Ideal S1x128x1 .f32) (cf : Vec Ideal S1x1x512 .f32)
    (p : Vec Ideal S1x512x128 .f32) (br : Vec Ideal S1x128 .f32) (u : Fin 1) (r o : Fin 128) :
    (k2_pay1 a rf cf p br : S1x128x128.Idx → EReal) (ix3 u r o)
      = (∑ j : Fin 512, ((a (ix3 0 r j) * rf (ix3 0 r 0)) * cf (ix3 0 0 j)) * p (ix3 0 j o)) + br (ix2 0 o) := by
  unfold k2_pay1
  refine (shapeCast_ab_1ab_apply _ _ u r o).trans ?_
  rw [addf_apply, aggDot_apply]
  refine congrArg₂ (· + ·) (Finset.sum_congr rfl fun j _ => ?_) ?_
  · rw [truncf_apply, truncf_apply, mulf_apply, mulf_apply, shapeCast_1ab_ab_apply, agg_broadcastTo_a1_ab_apply,
      shapeCast_1ab_ab_apply, broadcastTo_1b_ab_apply, shapeCast_1ab_ab_apply, shapeCast_1ab_ab_apply]
  · rw [broadcastTo_1b_ab_apply, shapeCast_self]

theorem agg_zeros3 : (![0, 0, 0] : Fin 3 → Nat) = fun _ => 0 := funext fun a => by fin_cases a <;> rfl
theorem agg_zeros2 : (![0, 0] : Fin 2 → Nat) = fun _ => 0 := funext fun a => by fin_cases a <;> rfl

/-- The printed index maps over the grid: point t is (t / 4, t % 4); the strip, the row factors and the output block sit at
    block (t / 4, t % 4, 0), the column factors and the slab at (t / 4, 0, 0), the bias at (0, 0). -/
theorem agg_idx_facts : ∀ t : Fin cfg2.N,
    win2_5.index t (0 : Fin 3) = t.val / 4 ∧ win2_5.index t (1 : Fin 3) = t.val % 4 ∧ win2_5.index t (2 : Fin 3) = 0
    ∧ win2_0.index t (0 : Fin 3) = t.val / 4 ∧ win2_0.index t (1 : Fin 3) = t.val % 4 ∧ win2_0.index t (2 : Fin 3) = 0
    ∧ win2_1.index t (0 : Fin 3) = t.val / 4 ∧ win2_1.index t (1 : Fin 3) = t.val % 4 ∧ win2_1.index t (2 : Fin 3) = 0
    ∧ win2_2.index t (0 : Fin 3) = t.val / 4 ∧ win2_2.index t (1 : Fin 3) = 0 ∧ win2_2.index t (2 : Fin 3) = 0
    ∧ win2_3.index t (0 : Fin 3) = t.val / 4 ∧ win2_3.index t (1 : Fin 3) = 0 ∧ win2_3.index t (2 : Fin 3) = 0
    ∧ win2_4.index t (0 : Fin 2) = 0 ∧ win2_4.index t (1 : Fin 2) = 0 :=
  (by decide +kernel : ∀ t : Fin grid2.N, _)

/-- An entry of the adjacency strip at point t is the adjacency at the strip's place in the array. -/
theorem agg_strip_apply (c : Dev nD) (t : Fin cfg2.N) (x : S1x128x512.Idx) (k : S8x512x512.Idx)
    (h0 : (k 0).val = win2_0.index t (0 : Fin 3) * 1 + (x 0).val) (h1 : (k 1).val = win2_0.index t (1 : Fin 3) * 128 + (x 1).val)
    (h2 : (k 2).val = win2_0.index t (2 : Fin 3) * 512 + (x 2).val) :
    (iblk2 V c 0 t : Vec Ideal S1x128x512 .f32) x = (V c main_v4 : S8x512x512.Idx → EReal) k := by
  unfold iblk2
  rw [View.read_apply]
  show V c main_v4 _ = V c main_v4 _
  congr 1
  funext a
  apply Fin.ext
  match a with
  | ⟨0, _⟩ => show win2_0.index t (0 : Fin 3) * 1 + 1 * (x 0).val = (k 0).val; omega
  | ⟨1, _⟩ => show win2_0.index t (1 : Fin 3) * 128 + 1 * (x 1).val = (k 1).val; omega
  | ⟨2, _⟩ => show win2_0.index t (2 : Fin 3) * 512 + 1 * (x 2).val = (k 2).val; omega

/-- An entry of the row-factor block at point t is the row factor at its place in the array. -/
theorem agg_rowf_apply (c : Dev nD) (t : Fin cfg2.N) (x : S1x128x1.Idx) (k : S8x512x1.Idx)
    (h0 : (k 0).val = win2_1.index t (0 : Fin 3) * 1 + (x 0).val) (h1 : (k 1).val = win2_1.index t (1 : Fin 3) * 128 + (x 1).val)
    (h2 : (k 2).val = win2_1.index t (2 : Fin 3) * 1 + (x 2).val) :
    (iblk2 V c 1 t : Vec Ideal S1x128x1 .f32) x = (V c main_v7 : S8x512x1.Idx → EReal) k := by
  unfold iblk2
  rw [View.read_apply]
  show V c main_v7 _ = V c main_v7 _
  congr 1
  funext a
  apply Fin.ext
  match a with
  | ⟨0, _⟩ => show win2_1.index t (0 : Fin 3) * 1 + 1 * (x 0).val = (k 0).val; omega
  | ⟨1, _⟩ => show win2_1.index t (1 : Fin 3) * 128 + 1 * (x 1).val = (k 1).val; omega
  | ⟨2, _⟩ => show win2_1.index t (2 : Fin 3) * 1 + 1 * (x 2).val = (k 2).val; omega

/-- An entry of the column-factor block at point t is the column factor at its place in the array. -/
theorem agg_colf_apply (c : Dev nD) (t : Fin cfg2.N) (x : S1x1x512.Idx) (k : S8x1x512.Idx)
    (h0 : (k 0).val = win2_2.index t (0 : Fin 3) * 1 + (x 0).val) (h1 : (k 1).val = win2_2.index t (1 : Fin 3) * 1 + (x 1).val)
    (h2 : (k 2).val = win2_2.index t (2 : Fin 3) * 512 + (x 2).val) :
    (iblk2 V c 2 t : Vec Ideal S1x1x512 .f32) x = (V c main_v8 : S8x1x512.Idx → EReal) k := by
  unfold iblk2
  rw [View.read_apply]
  show V c main_v8 _ = V c main_v8 _
  congr 1
  funext a
  apply Fin.ext
  match a with
  | ⟨0, _⟩ => show win2_2.index t (0 : Fin 3) * 1 + 1 * (x 0).val = (k 0).val; omega
  | ⟨1, _⟩ => show win2_2.index t (1 : Fin 3) * 1 + 1 * (x 1).val = (k 1).val; omega
  | ⟨2, _⟩ => show win2_2.index t (2 : Fin 3) * 512 + 1 * (x 2).val = (k 2).val; omega

/-- An entry of the feature slab at point t is the projected feature at its place in the array. -/
theorem agg_slab_apply (c : Dev nD) (t : Fin cfg2.N) (x : S1x512x128.Idx) (k : S8x512x128.Idx)
    (h0 : (k 0).val = win2_3.index t (0 : Fin 3) * 1 + (x 0).val) (h1 : (k 1).val = win2_3.index t (1 : Fin 3) * 512 + (x 1).val)
    (h2 : (k 2).val = win2_3.index t (2 : Fin 3) * 128 + (x 2).val) :
    (iblk2 V c 3 t : Vec Ideal S1x512x128 .f32) x = (V c main_v9 : S8x512x128.Idx → EReal) k := by
  unfold iblk2
  rw [View.read_apply]
  show V c main_v9 _ = V c main_v9 _
  congr 1
  funext a
  apply Fin.ext
  match a with
  | ⟨0, _⟩ => show win2_3.index t (0 : Fin 3) * 1 + 1 * (x 0).val = (k 0).val; omega
  | ⟨1, _⟩ => show win2_3.index t (1 : Fin 3) * 512 + 1 * (x 1).val = (k 1).val; omega
  | ⟨2, _⟩ => show win2_3.index t (2 : Fin 3) * 128 + 1 * (x 2).val = (k 2).val; omega

/-- An entry of the bias block at point t is the bias row's entry. -/
theorem agg_bias_apply (c : Dev nD) (t : Fin cfg2.N) (x : S1x128.Idx) (k : S1x128.Idx)
    (h0 : (k 0).val = win2_4.index t (0 : Fin 2) * 1 + (x 0).val) (h1 : (k 1).val = win2_4.index t (1 : Fin 2) * 128 + (x 1).val) :
    (iblk2 V c 4 t : Vec Ideal S1x128 .f32) x = (V c main_v3 : S1x128.Idx → EReal) k := by
  unfold iblk2
  rw [View.read_apply]
  show V c main_v3 _ = V c main_v3 _
  congr 1
  funext a
  apply Fin.ext
  match a with
  | ⟨0, _⟩ => show win2_4.index t (0 : Fin 2) * 1 + 1 * (x 0).val = (k 0).val; omega
  | ⟨1, _⟩ => show win2_4.index t (1 : Fin 2) * 128 + 1 * (x 1).val = (k 1).val; omega

/-- The payload at entry x of the block is the aggregation at array index i, once every block entry the payload reads
    is the array entry the aggregation reads at i. -/
theorem agg_pay_eq (A : S8x512x512.Idx → EReal) (RF : S8x512x1.Idx → EReal) (CF : S8x1x512.Idx → EReal)
    (P : S8x512x128.Idx → EReal) (BR : S1x128.Idx → EReal)
    (a : Vec Ideal S1x128x512 .f32) (rf : Vec Ideal S1x128x1 .f32) (cf : Vec Ideal S1x1x512 .f32)
    (p : Vec Ideal S1x512x128 .f32) (br : Vec Ideal S1x128 .f32) (x : S1x128x128.Idx) (i : S8x512x128.Idx)
    (ha : ∀ j : Fin 512, a (ix3 0 (x 1) j) = A (ix3 (i 0) (i 1) j))
    (hrf : rf (ix3 0 (x 1) 0) = RF (ix3 (i 0) (i 1) 0))
    (hcf : ∀ j : Fin 512, cf (ix3 0 0 j) = CF (ix3 (i 0) 0 j))
    (hp : ∀ j : Fin 512, p (ix3 0 j (x 2)) = P (ix3 (i 0) j (i 2)))
    (hbr : br (ix2 0 (x 2)) = BR (ix2 0 (i 2))) :
    (k2_pay1 a rf cf p br : S1x128x128.Idx → EReal) x = Cert.Spec.aggK A RF CF P BR i := by
  refine (congrArg (k2_pay1 a rf cf p br : S1x128x128.Idx → EReal) (eq_ix3 x)).trans ((agg_pay_apply a rf cf p br (x 0) (x 1) (x 2)).trans ?_)
  show _ = (∑ j : Fin 512, _) + _
  rw [hrf, hbr]
  refine congrArg (· + BR (ix2 0 (i 2))) (Finset.sum_congr rfl fun j _ => ?_)
  rw [ha j, hcf j, hp j]

/-- What point t writes back is its block of the aggregation of the five arrays the windows read. -/
theorem agg_flushed (c : Dev nD) (t : Fin cfg2.N) :
    (dat2 (F := Ideal) V c).flushed 5 t
      = ((cfg2.win 5).blk t).view.read (Elt Ideal)
          (Cert.Spec.aggK (V c main_v4) (V c main_v7) (V c main_v8) (V c main_v9) (V c main_v3) : S8x512x128.Idx → EReal) := by
  show (cfg2.win 5).cut (grid2.coords t) ((dat2 (F := Ideal) V c).after 5 t) = _
  rw [after2_5]
  unfold out2_5
  rw [View.canon_unit_zero agg_zeros3]
  simp only [View.ld_unit_zero (S := S1x128x512) agg_zeros3, View.ld_unit_zero (S := S1x128x1) agg_zeros3,
    View.ld_unit_zero (S := S1x1x512) agg_zeros3, View.ld_unit_zero (S := S1x512x128) agg_zeros3, View.ld_unit_zero (S := S1x128) agg_zeros2]
  obtain ⟨e50, e51, e52, e00, e01, e02, e10, e11, e12, e20, e21, e22, e30, e31, e32, e40, e41⟩ := agg_idx_facts t
  funext y
  have hy0 : (y 0).val < 1 := (y 0).isLt
  have hy1 : (y 1).val < 128 := (y 1).isLt
  have hy2 : (y 2).val < 128 := (y 2).isLt
  show (k2_pay1 (iblk2 V c 0 t) (iblk2 V c 1 t) (iblk2 V c 2 t) (iblk2 V c 3 t) (iblk2 V c 4 t) : S1x128x128.Idx → EReal)
      ((cfg2.win 5).xinj (grid2.coords t) y)
    = Cert.Spec.aggK (V c main_v4) (V c main_v7) (V c main_v8) (V c main_v9) (V c main_v3) (((cfg2.win 5).blk t).view.emb y)
  refine agg_pay_eq _ _ _ _ _ _ _ _ _ _ _ _ (fun j => ?_) ?_ (fun j => ?_) (fun j => ?_) ?_
  · refine agg_strip_apply V c t _ _ ?_ ?_ ?_
    · show win2_5.index t (0 : Fin 3) * 1 + 1 * (y 0).val = win2_0.index t (0 : Fin 3) * 1 + 0; omega
    · show win2_5.index t (1 : Fin 3) * 128 + 1 * (y 1).val = win2_0.index t (1 : Fin 3) * 128 + (y 1).val; omega
    · show j.val = win2_0.index t (2 : Fin 3) * 512 + j.val; omega
  · refine agg_rowf_apply V c t _ _ ?_ ?_ ?_
    · show win2_5.index t (0 : Fin 3) * 1 + 1 * (y 0).val = win2_1.index t (0 : Fin 3) * 1 + 0; omega
    · show win2_5.index t (1 : Fin 3) * 128 + 1 * (y 1).val = win2_1.index t (1 : Fin 3) * 128 + (y 1).val; omega
    · show 0 = win2_1.index t (2 : Fin 3) * 1 + 0; omega
  · refine agg_colf_apply V c t _ _ ?_ ?_ ?_
    · show win2_5.index t (0 : Fin 3) * 1 + 1 * (y 0).val = win2_2.index t (0 : Fin 3) * 1 + 0; omega
    · show 0 = win2_2.index t (1 : Fin 3) * 1 + 0; omega
    · show j.val = win2_2.index t (2 : Fin 3) * 512 + j.val; omega
  · refine agg_slab_apply V c t _ _ ?_ ?_ ?_
    · show win2_5.index t (0 : Fin 3) * 1 + 1 * (y 0).val = win2_3.index t (0 : Fin 3) * 1 + 0; omega
    · show j.val = win2_3.index t (1 : Fin 3) * 512 + j.val; omega
    · show win2_5.index t (2 : Fin 3) * 128 + 1 * (y 2).val = win2_3.index t (2 : Fin 3) * 128 + (y 2).val; omega
  · refine agg_bias_apply V c t _ _ ?_ ?_
    · show 0 = win2_4.index t (0 : Fin 2) * 1 + 0; omega
    · show win2_5.index t (2 : Fin 3) * 128 + 1 * (y 2).val = win2_4.index t (1 : Fin 2) * 128 + (y 2).val; omega

/-- An index of the output array is in point t's block iff each coordinate is in the block's range on its axis. -/
theorem agg_mem_blk (t : Fin cfg2.N) (i : S8x512x128.Idx) :
    i ∈ ((cfg2.win 5).blk t).view.set ↔ ∀ a : Fin 3, win2_5.index t a * S1x128x128.size a ≤ (i a).val ∧ (i a).val < win2_5.index t a * S1x128x128.size a + S1x128x128.size a := by
  show i ∈ ((View.whole main_v10).slice (win2_5.rect t)).set ↔ _
  rw [View.set_slice_whole, Rect.mem_set_unit]
  exact Iff.rfl

/-- Every index (b, r, o) of the output array lies in the block of the point b · 4 + r / 128. -/
theorem agg_cover (i : S8x512x128.Idx) : ∃ t : Fin cfg2.N, (cfg2.win 5).flush t = true ∧ i ∈ ((cfg2.win 5).blk t).view.set := by
  have hi0 : (i 0).val < 8 := (i 0).isLt
  have hi1 : (i 1).val < 512 := (i 1).isLt
  have hi2 : (i 2).val < 128 := (i 2).isLt
  have hN : grid2.N = 32 := N_2
  let t : Fin cfg2.N := ⟨(i 0).val * 4 + (i 1).val / 128, by show _ < grid2.N; omega⟩
  have htv : t.val = (i 0).val * 4 + (i 1).val / 128 := rfl
  obtain ⟨e50, e51, e52, -⟩ := agg_idx_facts t
  refine ⟨t, flush2_5 t, ?_⟩
  rw [agg_mem_blk]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 128 ≤ (i 1).val ∧ (i 1).val < win2_5.index t (1 : Fin 3) * 128 + 128; omega
  | ⟨2, _⟩ => show win2_5.index t (2 : Fin 3) * 128 ≤ (i 2).val ∧ (i 2).val < win2_5.index t (2 : Fin 3) * 128 + 128; omega

/-- The output array the third pipeline leaves, index by index, from the five arrays its windows read. -/
theorem out_array (c : Dev nD) :
    (dat2 (F := Ideal) V c).arrAt 5 cfg2.N
      = (Cert.Spec.aggK (V c main_v4) (V c main_v7) (V c main_v8) (V c main_v9) (V c main_v3) : S8x512x128.Idx → EReal) :=
  (dat2 (F := Ideal) V c).arrAt_eq_of_cover 5 _ (fun t _ => agg_flushed V c t) agg_cover

end Cert.KernelIdeal.Hand

end
-- ==== Proof.KI.Glue.lean ====
/-
  The kernel program's two results at the ideal instance, as the specification's functions of the seven arguments.
  The adjacency array is the first pipeline's, read with the reshaped small operands identified with the arguments.
  The output array is the third pipeline's aggregation of: that adjacency; the row and column factors, which the host
  stretch between the regions computes as the inverse square root of the adjacency's row sums, broadcast; the second
  pipeline's projected features; and the reshaped bias.
-/
import proofs.«116299_j17961553231914_1_alg».proof.Proof.KI.RunDefs
import proofs.«116299_j17961553231914_1_alg».proof.Proof.KI.Val0
import proofs.«116299_j17961553231914_1_alg».proof.Proof.KI.Val1
import proofs.«116299_j17961553231914_1_alg».proof.Proof.KI.Val2
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Idealize.SL Idealize.SL.Sem

variable (m : (ℓ : Loc nD τ sig) → Buf (Elt Ideal) ℓ)

namespace Glue

/-! ## The first host stretch: the small operands reshaped to rows of one -/

/-- The first bias row is the first bias, reshaped [128] → [1, 128]. -/
theorem W1_v0_term (c : Dev nD) :
    (W1 m c (Proc.devRef .tc main_v0) : S1x128.Idx → EReal)
      = shapeCast S1x128 (m ((c : Thread nD τ).loc main_arg2) : S128.Idx → EReal) shapeCasts_S128_S1x128 := by
  dsimp only [W1, W0, hostOps0]
  after_results
  rfl

theorem E1_v0 (c : Dev nD) (h : Fin 128) :
    (E1 m c main_v0 : S1x128.Idx → EReal) (ix2 0 h) = (m ((c : Thread nD τ).loc main_arg2) : S128.Idx → EReal) (ix1 h) := by
  show (W1 m c (Proc.devRef .tc main_v0) : S1x128.Idx → EReal) (ix2 0 h) = _
  rw [W1_v0_term]
  exact shapeCast_a_1a_apply _ shapeCasts_S128_S1x128 0 h

/-- The second weight row is the second weight column, reshaped [128, 1] → [1, 128]. -/
theorem W1_v1_term (c : Dev nD) :
    (W1 m c (Proc.devRef .tc main_v1) : S1x128.Idx → EReal)
      = shapeCast S1x128 (m ((c : Thread nD τ).loc main_arg3) : S128x1.Idx → EReal) shapeCasts_S128x1_S1x128 := by
  dsimp only [W1, W0, hostOps0]
  after_results
  rfl

theorem E1_v1 (c : Dev nD) (h : Fin 128) :
    (E1 m c main_v1 : S1x128.Idx → EReal) (ix2 0 h) = (m ((c : Thread nD τ).loc main_arg3) : S128x1.Idx → EReal) (ix2 h 0) := by
  show (W1 m c (Proc.devRef .tc main_v1) : S1x128.Idx → EReal) (ix2 0 h) = _
  rw [W1_v1_term]
  refine shapeCast_apply _ shapeCasts_S128x1_S1x128 (ix2 (0 : Fin 1) h) (ix2 h (0 : Fin 1)) ?_
  rw [Shape.rowMajor_val_two, Shape.rowMajor_val_two]
  show h.val * 1 + 0 = 0 * 128 + h.val
  omega

/-- The second bias as a 1×1 array is the second bias, reshaped [1] → [1, 1]. -/
theorem W1_v2_term (c : Dev nD) :
    (W1 m c (Proc.devRef .tc main_v2) : S1x1.Idx → EReal)
      = shapeCast S1x1 (m ((c : Thread nD τ).loc main_arg4) : S1.Idx → EReal) shapeCasts_S1_S1x1 := by
  dsimp only [W1, W0, hostOps0]
  after_results
  rfl

theorem E1_v2 (c : Dev nD) :
    (E1 m c main_v2 : S1x1.Idx → EReal) (ix2 0 0) = (m ((c : Thread nD τ).loc main_arg4) : S1.Idx → EReal) (ix1 0) := by
  show (W1 m c (Proc.devRef .tc main_v2) : S1x1.Idx → EReal) (ix2 0 0) = _
  rw [W1_v2_term]
  exact shapeCast_a_1a_apply _ shapeCasts_S1_S1x1 0 0

/-- The output bias row is the output bias, reshaped [128] → [1, 128]. -/
theorem W1_v3_term (c : Dev nD) :
    (W1 m c (Proc.devRef .tc main_v3) : S1x128.Idx → EReal)
      = shapeCast S1x128 (m ((c : Thread nD τ).loc main_arg6) : S128.Idx → EReal) shapeCasts_S128_S1x128 := by
  dsimp only [W1, W0, hostOps0]
  after_results
  rfl

theorem W1_v3 (c : Dev nD) (o : Fin 128) :
    (W1 m c (Proc.devRef .tc main_v3) : S1x128.Idx → EReal) (ix2 0 o) = (m ((c : Thread nD τ).loc main_arg6) : S128.Idx → EReal) (ix1 o) := by
  rw [W1_v3_term]
  exact shapeCast_a_1a_apply _ shapeCasts_S128_S1x128 0 o

/-- The bias row is carried unchanged from the first host stretch to the third region's entry. -/
theorem E4_v3_eq (c : Dev nD) : E4 m c main_v3 = W1 m c (Proc.devRef .tc main_v3) :=
  (W4_of m c main_v3 (by decide)).trans <| (W3_of m c main_v3 (by decide)).trans (W2_of m c main_v3 (by decide))

theorem E4_v3 (c : Dev nD) (o : Fin 128) :
    (E4 m c main_v3 : S1x128.Idx → EReal) (ix2 0 o) = (m ((c : Thread nD τ).loc main_arg6) : S128.Idx → EReal) (ix1 o) := by
  rw [E4_v3_eq]
  exact W1_v3 m c o

/-! ## The second host stretch: the degree, its inverse square root, and the two broadcasts -/

/-- The inverse square root of the degree, as the host operations compute it from the adjacency array. -/
def dinvH (a : S8x512x512.Idx → EReal) : S8x512.Idx → EReal :=
  Host.rsqrt (F := Ideal) (Host.reduceAdd (F := Ideal) a (constant (F := Ideal) S_ .f32 0x00000000#32) reducesTo_S8x512x512_S8x512_d2 h_S_)

/-- The row factors are the host's inverse square root of the degree broadcast along a trailing unit axis. -/
theorem W3_v7_term (c : Dev nD) :
    (W3 m c (Proc.devRef .tc main_v7) : S8x512x1.Idx → EReal)
      = broadcastInDim S8x512x1 ![0, 1] bcast_S8x512_S8x512x1_0_1 (dinvH (W2 m c (Proc.devRef .tc main_v4))) := by
  dsimp only [W3, hostOps1]
  after_results
  rfl

/-- The column factors are the same vector broadcast along a middle unit axis. -/
theorem W3_v8_term (c : Dev nD) :
    (W3 m c (Proc.devRef .tc main_v8) : S8x1x512.Idx → EReal)
      = broadcastInDim S8x1x512 ![0, 2] bcast_S8x512_S8x1x512_0_2 (dinvH (W2 m c (Proc.devRef .tc main_v4))) := by
  dsimp only [W3, hostOps1]
  after_results
  rfl

/-- The host's inverse square root of the degree is the specification's, index by index. -/
theorem dinvH_apply (a : S8x512x512.Idx → EReal) (b : Fin 8) (i : Fin 512) :
    dinvH a (ix2 b i) = Cert.Spec.dinvS a (ix2 b i) := by
  unfold dinvH
  show FloatOps.hostUnary .rsqrt (Host.reduceAdd (F := Ideal) a (constant (F := Ideal) S_ .f32 0x00000000#32) reducesTo_S8x512x512_S8x512_d2 h_S_ (ix2 b i)) = _
  rw [Ideal.hostUnary_rsqrt_def]
  unfold Cert.Spec.dinvS Cert.Spec.degS
  refine congrArg Ideal.rsqrt ?_
  simp only [Host.reduceAdd, Ideal.hostReduceAdd_def]
  rw [Ideal.hostReduceAdd_single reducesTo_S8x512x512_S8x512_d2 (by decide)]
  refine congrArg₂ (· + ·) ?_ (Finset.sum_congr rfl fun k _ => ?_)
  · exact Ideal.ofBits_zero_f32
  · exact congrArg a (funext fun d => Fin.ext (by match d with | ⟨0, _⟩ => rfl | ⟨1, _⟩ => rfl | ⟨2, _⟩ => rfl))

/-- The row factor at (b, i, 0) is the specification's inverse square root of the degree of node i of batch b,
    the degree taken of the adjacency array the first pipeline left. -/
theorem E4_v7 (c : Dev nD) (b : Fin 8) (i : Fin 512) :
    (E4 m c main_v7 : S8x512x1.Idx → EReal) (ix3 b i 0) = Cert.Spec.dinvS (adjArr m c) (ix2 b i) := by
  show (W4 m c (Proc.devRef .tc main_v7) : S8x512x1.Idx → EReal) (ix3 b i 0) = _
  rw [W4_of m c main_v7 (by decide), W3_v7_term, W2_adj]
  refine (broadcastInDim_apply _ bcast_S8x512_S8x512x1_0_1 (dinvH (adjArr m c)) (ix3 b i (0 : Fin 1)) (ix2 b i) (fun a => ?_)).trans
    (dinvH_apply (adjArr m c) b i)
  match a with
  | ⟨0, _⟩ => show b.val = if (8 : Nat) = 1 then 0 else b.val; rw [if_neg (by decide)]
  | ⟨1, _⟩ => show i.val = if (512 : Nat) = 1 then 0 else i.val; rw [if_neg (by decide)]

/-- The column factor at (b, 0, j) is the same quantity for node j. -/
theorem E4_v8 (c : Dev nD) (b : Fin 8) (j : Fin 512) :
    (E4 m c main_v8 : S8x1x512.Idx → EReal) (ix3 b 0 j) = Cert.Spec.dinvS (adjArr m c) (ix2 b j) := by
  show (W4 m c (Proc.devRef .tc main_v8) : S8x1x512.Idx → EReal) (ix3 b 0 j) = _
  rw [W4_of m c main_v8 (by decide), W3_v8_term, W2_adj]
  refine (broadcastInDim_apply _ bcast_S8x512_S8x1x512_0_2 (dinvH (adjArr m c)) (ix3 b (0 : Fin 1) j) (ix2 b j) (fun a => ?_)).trans
    (dinvH_apply (adjArr m c) b j)
  match a with
  | ⟨0, _⟩ => show b.val = if (8 : Nat) = 1 then 0 else b.val; rw [if_neg (by decide)]
  | ⟨1, _⟩ => show j.val = if (512 : Nat) = 1 then 0 else j.val; rw [if_neg (by decide)]

/-! ## What is carried: the arguments and the two arrays earlier regions wrote -/

theorem E1_arg0 (c : Dev nD) : E1 m c main_arg0 = m ((c : Thread nD τ).loc main_arg0) := W1_of m c main_arg0 (by decide)
theorem E1_arg1 (c : Dev nD) : E1 m c main_arg1 = m ((c : Thread nD τ).loc main_arg1) := W1_of m c main_arg1 (by decide)
theorem E3_arg0 (c : Dev nD) : E3 m c main_arg0 = m ((c : Thread nD τ).loc main_arg0) :=
  (W3_of m c main_arg0 (by decide)).trans <| (W2_of m c main_arg0 (by decide)).trans (W1_of m c main_arg0 (by decide))
theorem E3_arg5 (c : Dev nD) : E3 m c main_arg5 = m ((c : Thread nD τ).loc main_arg5) :=
  (W3_of m c main_arg5 (by decide)).trans <| (W2_of m c main_arg5 (by decide)).trans (W1_of m c main_arg5 (by decide))
theorem E4_v4 (c : Dev nD) : E4 m c main_v4 = adjArr m c :=
  (W4_of m c main_v4 (by decide)).trans <| (W3_of m c main_v4 (by decide)).trans (W2_adj m c)
theorem E4_v9 (c : Dev nD) : E4 m c main_v9 = xwArr m c := W4_xw m c

/-! ## The two arrays the first two regions leave -/

/-- The adjacency array the first pipeline leaves is the specification's adjacency of the arguments. -/
theorem adjArr_eq (c : Dev nD) :
    adjArr m c
      = (Cert.Spec.adjS (m ((c : Thread nD τ).loc main_arg0)) (m ((c : Thread nD τ).loc main_arg1)) (m ((c : Thread nD τ).loc main_arg2))
          (m ((c : Thread nD τ).loc main_arg3)) (m ((c : Thread nD τ).loc main_arg4)) : S8x512x512.Idx → EReal) := by
  unfold adjArr
  rw [adj_array (E1 m) c, E1_arg0, E1_arg1]
  exact Cert.Spec.adjK_eq_adjS _ _ _ _ _ _ _ _ (E1_v0 m c) (E1_v1 m c) (E1_v2 m c)

/-- The projected-features array the second pipeline leaves is the specification's projection of the arguments. -/
theorem xwArr_eq (c : Dev nD) :
    xwArr m c = (Cert.Spec.xwS (m ((c : Thread nD τ).loc main_arg0)) (m ((c : Thread nD τ).loc main_arg5)) : S8x512x128.Idx → EReal) := by
  unfold xwArr
  rw [xw_array (E3 m) c, E3_arg0, E3_arg5]

end Glue

open Glue

/-! ## The two results -/

/-- The adjacency array at the end of the run is the specification's adjacency of the arguments. -/
theorem kernel_adj (c : Dev nD) :
    W5 m c (Proc.devRef .tc main_v4)
      = (Cert.Spec.adjS (m ((c : Thread nD τ).loc main_arg0)) (m ((c : Thread nD τ).loc main_arg1)) (m ((c : Thread nD τ).loc main_arg2))
          (m ((c : Thread nD τ).loc main_arg3)) (m ((c : Thread nD τ).loc main_arg4)) : S8x512x512.Idx → EReal) :=
  (W5_adj m c).trans (adjArr_eq m c)

/-- The output array at the end of the run is the specification's output of the arguments. -/
theorem kernel_out (c : Dev nD) :
    W5 m c (Proc.devRef .tc main_v10)
      = (Cert.Spec.outS (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) : S8x512x128.Idx → EReal) := by
  refine (W5_out m c).trans ?_
  unfold outArr
  rw [out_array (E4 m) c, E4_v4, E4_v9]
  exact Cert.Spec.aggK_eq_outS _ _ _ _ _ _ _ _ _ _ _ _ (adjArr_eq m c) (E4_v7 m c) (E4_v8 m c) (xwArr_eq m c) (E4_v3 m c)

end Cert.KernelIdeal.Hand

end
-- ==== Proof.Ref.lean ====
/-
  The reference program's two results at the ideal instance, index by index: its chain of forty host operations, read one
  operation at a time, is the layer's mathematics as the specification states it — the adjacency, and the output.
-/
import proofs.«116299_j17961553231914_1_alg».proof.Proof.Gen.ReferenceIdeal.Read
import proofs.«116299_j17961553231914_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The pair features: |x[b,r,d] − x[b,s,d]| -/

/-- The two broadcasts of the features, subtracted and taken in magnitude, at the pair (r, s) of batch b and feature d:
    the left operand reads row r, the right operand row s. -/
theorem absdiff_at (x0 : (⟨S8x512x128, .f32⟩ : BufTy).Contents (Elt Ideal)) (b : Fin 8) (r s : Fin 512) (d : Fin 128) :
    val_main_v5 (F := Ideal) x0 (ix4 b r s d) = Cert.Spec.mag (x0 (ix3 b r d) - x0 (ix3 b s d)) := by
  have el : idx_main_v0 (idx_main_v2 (ix4 b r s d)) = ix3 b r d :=
    funext fun a => Fin.ext (by match a with | ⟨0, _⟩ => rfl | ⟨1, _⟩ => rfl | ⟨2, _⟩ => rfl)
  have er : idx_main_v1 (idx_main_v3 (ix4 b r s d)) = ix3 b s d :=
    funext fun a => Fin.ext (by match a with | ⟨0, _⟩ => rfl | ⟨1, _⟩ => rfl | ⟨2, _⟩ => rfl)
  rw [val_main_v5_apply, val_main_v4_apply, val_main_v2_apply, val_main_v0_apply, val_main_v3_apply, val_main_v1_apply,
    el, er]
  rfl

/-! ## The first layer: the pair features times w1, plus b1, cut at zero -/

/-- The first layer before the cut, at the pair (r, s) of batch b and hidden unit h: the contraction over the feature
    axis reads w1's row d and column h; the bias is b1 at h whatever the pair. -/
theorem hidden_at (x0 : (⟨S8x512x128, .f32⟩ : BufTy).Contents (Elt Ideal)) (x1 : (⟨S128x128, .f32⟩ : BufTy).Contents (Elt Ideal))
    (x2 : (⟨S128, .f32⟩ : BufTy).Contents (Elt Ideal)) (b : Fin 8) (r s : Fin 512) (h : Fin 128) :
    val_main_v9 (F := Ideal) x0 x1 x2 (ix4 b r s h)
      = (∑ d : Fin 128, Cert.Spec.mag (x0 (ix3 b r d) - x0 (ix3 b s d)) * x1 (ix2 d h)) + x2 (ix1 h) := by
  have el : ∀ k : Fin 128, lidx_main_v6 (ix4 b r s h) k = ix4 b r s k := fun k =>
    funext fun a => Fin.ext (by match a with | ⟨0, _⟩ => rfl | ⟨1, _⟩ => rfl | ⟨2, _⟩ => rfl | ⟨3, _⟩ => rfl)
  have er : ∀ k : Fin 128, ridx_main_v6 (ix4 b r s h) k = ix2 k h := fun k =>
    funext fun a => Fin.ext (by match a with | ⟨0, _⟩ => rfl | ⟨1, _⟩ => rfl)
  have eb : idx_main_v7 (idx_main_v8 (ix4 b r s h)) = ix1 h :=
    funext fun a => Fin.ext (by match a with | ⟨0, _⟩ => rfl)
  rw [val_main_v9_apply, val_main_v6_apply, val_main_v8_apply, val_main_v7_apply, eb]
  refine congrArg (· + x2 (ix1 h)) (Finset.sum_congr rfl fun d _ => ?_)
  rw [el d, er d, absdiff_at]

/-- The first layer after the cut at zero (the maximum with the broadcast zero). -/
theorem relu_at (x0 : (⟨S8x512x128, .f32⟩ : BufTy).Contents (Elt Ideal)) (x1 : (⟨S128x128, .f32⟩ : BufTy).Contents (Elt Ideal))
    (x2 : (⟨S128, .f32⟩ : BufTy).Contents (Elt Ideal)) (b : Fin 8) (r s : Fin 512) (h : Fin 128) :
    val_main_v10 (F := Ideal) x0 x1 x2 (ix4 b r s h)
      = max ((∑ d : Fin 128, Cert.Spec.mag (x0 (ix3 b r d) - x0 (ix3 b s d)) * x1 (ix2 d h)) + x2 (ix1 h)) 0 := by
  rw [val_main_v10_apply, hidden_at, val_main_call0_v0_apply, val_main_call0_cst_apply]
  show max _ (Ideal.ofBits .f32 0x00000000#32) = _
  rw [Ideal.ofBits_zero_f32]

/-! ## The second layer and the score -/

/-- The one-element array b2 reshaped to a scalar reads b2's one element. -/
theorem bias2_at (x4 : (⟨S1, .f32⟩ : BufTy).Contents (Elt Ideal)) (j : S_.Idx) :
    val_main_v13 (F := Ideal) x4 j = x4 (ix1 0) := by
  unfold val_main_v13
  refine shapeCast_apply x4 shapeCasts_S1_S_ j (ix1 0) ?_
  rw [Shape.rowMajor_val_one]
  exact (Shape.rowMajorPi_zero _ _).symm

/-- The score before the logistic function, at the pair (r, s) of batch b: the contraction over the hidden axis reads
    w2's row h and its one column; the reshape that drops the unit axis keeps the pair; b2 is the same everywhere. -/
theorem score_at (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (b : Fin 8) (r s : Fin 512) :
    val_main_v15 (F := Ideal) x0 x1 x2 x3 x4 (ix3 b r s)
      = Cert.Spec.pre (fun d => x0 (ix3 b r d)) (fun d => x0 (ix3 b s d)) x1 (fun h => x2 (ix1 h)) (fun h => x3 (ix2 h 0))
          (x4 (ix1 0)) := by
  have hb : b.val < 8 := b.isLt
  have hr : r.val < 512 := r.isLt
  have hs : s.val < 512 := s.isLt
  have ec : idx_main_v12 (ix3 b r s) = ix4 b r s (0 : Fin 1) :=
    funext fun a => Fin.ext (by
      match a with
      | ⟨0, _⟩ => show ((b.val * 512 + r.val) * 512 + s.val) / 262144 = b.val; omega
      | ⟨1, _⟩ => show ((b.val * 512 + r.val) * 512 + s.val) / 512 % 512 = r.val; omega
      | ⟨2, _⟩ => show ((b.val * 512 + r.val) * 512 + s.val) / 1 % 512 = s.val; omega
      | ⟨3, _⟩ => rfl)
  have el : ∀ k : Fin 128, lidx_main_v11 (ix4 b r s (0 : Fin 1)) k = ix4 b r s k := fun k =>
    funext fun a => Fin.ext (by match a with | ⟨0, _⟩ => rfl | ⟨1, _⟩ => rfl | ⟨2, _⟩ => rfl | ⟨3, _⟩ => rfl)
  have er : ∀ k : Fin 128, ridx_main_v11 (ix4 b r s (0 : Fin 1)) k = ix2 k (0 : Fin 1) := fun k =>
    funext fun a => Fin.ext (by match a with | ⟨0, _⟩ => rfl | ⟨1, _⟩ => rfl)
  rw [val_main_v15_apply, val_main_v12_apply, ec, val_main_v11_apply, val_main_v14_apply, bias2_at]
  unfold Cert.Spec.pre
  refine congrArg (· + x4 (ix1 0)) (Finset.sum_congr rfl fun h _ => ?_)
  rw [el h, er h, relu_at]

/-- The reference's adjacency is the specification's. -/
theorem ref_adj (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) :
    val_main_v21 (F := Ideal) x0 x1 x2 x3 x4 = (Cert.Spec.adjS x0 x1 x2 x3 x4 : S8x512x512.Idx → EReal) := by
  funext i
  obtain ⟨b, r, s, rfl⟩ : ∃ (b : Fin 8) (r s : Fin 512), i = ix3 b r s := ⟨i 0, i 1, i 2, eq_ix3 i⟩
  rw [val_main_v21_apply, val_main_v20_apply, val_main_cst_0_apply, val_main_v19_apply, val_main_v18_apply,
    val_main_cst_apply, val_main_v17_apply, val_main_v16_apply, score_at]
  -- one over one plus the exponential of the negated score is the logistic function of the score
  show Ideal.div (Ideal.ofBits .f32 0x3F800000#32) (Ideal.ofBits .f32 0x3F800000#32 + Ideal.exp (-_)) = Ideal.logistic _
  rw [Ideal.ofBits_one_f32]
  rfl

/-! ## The degree and its inverse square root -/

/-- The inverse square root of the row sums of the reference's adjacency is the specification's, once the adjacency is:
    the sum along the last axis starts from the zero word and reads row (b, r). -/
theorem ref_dinv (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (b : Fin 8) (r : Fin 512) :
    val_main_v23 (F := Ideal) x0 x1 x2 x3 x4 (ix2 b r) = Cert.Spec.dinvS (Cert.Spec.adjS x0 x1 x2 x3 x4) (ix2 b r) := by
  have ek : ∀ k : Fin 512, idx_main_v22 (ix2 b r) k = ix3 b r k := fun k =>
    funext fun a => Fin.ext (by match a with | ⟨0, _⟩ => rfl | ⟨1, _⟩ => rfl | ⟨2, _⟩ => rfl)
  rw [val_main_v23_apply, val_main_v22_apply, val_main_cst_1_apply, ref_adj]
  show Ideal.rsqrt (Ideal.ofBits .f32 0x00000000#32 + _) = Ideal.rsqrt (0 + _)
  rw [Ideal.ofBits_zero_f32]
  refine congrArg (fun t => Ideal.rsqrt (0 + t)) (Finset.sum_congr rfl fun k _ => ?_)
  rw [ek k]

/-! ## The normalized adjacency -/

/-- The adjacency times the row factor times the column factor, at the pair (r, j) of batch b: the row factor is
    broadcast along the last axis and reads node r, the column factor along the middle axis and reads node j. -/
theorem normadj_at (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (b : Fin 8) (r j : Fin 512) :
    val_main_v29 (F := Ideal) x0 x1 x2 x3 x4 (ix3 b r j)
      = (Cert.Spec.adjS x0 x1 x2 x3 x4 (ix3 b r j) * Cert.Spec.dinvS (Cert.Spec.adjS x0 x1 x2 x3 x4) (ix2 b r))
          * Cert.Spec.dinvS (Cert.Spec.adjS x0 x1 x2 x3 x4) (ix2 b j) := by
  have erow : idx_main_v24 (idx_main_v25 (ix3 b r j)) = ix2 b r :=
    funext fun a => Fin.ext (by match a with | ⟨0, _⟩ => rfl | ⟨1, _⟩ => rfl)
  have ecol : idx_main_v27 (idx_main_v28 (ix3 b r j)) = ix2 b j :=
    funext fun a => Fin.ext (by match a with | ⟨0, _⟩ => rfl | ⟨1, _⟩ => rfl)
  rw [val_main_v29_apply, val_main_v26_apply, val_main_v25_apply, val_main_v24_apply, erow, val_main_v28_apply,
    val_main_v27_apply, ecol, ref_dinv, ref_dinv, ref_adj]
  rfl

/-! ## The projected features -/

/-- The features times the projection, at node n of batch b and output o: the contraction over the feature axis reads
    gw's row d and column o. -/
theorem proj_at (x0 : (⟨S8x512x128, .f32⟩ : BufTy).Contents (Elt Ideal)) (x5 : (⟨S128x128, .f32⟩ : BufTy).Contents (Elt Ideal))
    (b : Fin 8) (n : Fin 512) (o : Fin 128) :
    val_main_v30 (F := Ideal) x0 x5 (ix3 b n o) = Cert.Spec.xwS x0 x5 (ix3 b n o) := by
  have el : ∀ k : Fin 128, lidx_main_v30 (ix3 b n o) k = ix3 b n k := fun k =>
    funext fun a => Fin.ext (by match a with | ⟨0, _⟩ => rfl | ⟨1, _⟩ => rfl | ⟨2, _⟩ => rfl)
  have er : ∀ k : Fin 128, ridx_main_v30 (ix3 b n o) k = ix2 k o := fun k =>
    funext fun a => Fin.ext (by match a with | ⟨0, _⟩ => rfl | ⟨1, _⟩ => rfl)
  rw [val_main_v30_apply]
  show _ = ∑ d : Fin 128, x0 (ix3 b n d) * x5 (ix2 d o)
  refine Finset.sum_congr rfl fun d _ => ?_
  rw [el d, er d]

/-! ## The output -/

/-- The reference's output is the specification's. -/
theorem ref_out (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (x5 : (⟨S128x128, .f32⟩ : BufTy).Contents (Elt Ideal))
    (x6 : (⟨S128, .f32⟩ : BufTy).Contents (Elt Ideal)) :
    val_main_v34 (F := Ideal) x0 x1 x2 x3 x4 x5 x6 = (Cert.Spec.outS x0 x1 x2 x3 x4 x5 x6 : S8x512x128.Idx → EReal) := by
  funext i
  obtain ⟨b, r, o, rfl⟩ : ∃ (b : Fin 8) (r : Fin 512) (o : Fin 128), i = ix3 b r o := ⟨i 0, i 1, i 2, eq_ix3 i⟩
  have el : ∀ k : Fin 512, lidx_main_v31 (ix3 b r o) k = ix3 b r k := fun k =>
    funext fun a => Fin.ext (by match a with | ⟨0, _⟩ => rfl | ⟨1, _⟩ => rfl | ⟨2, _⟩ => rfl)
  have er : ∀ k : Fin 512, ridx_main_v31 (ix3 b r o) k = ix3 b k o := fun k =>
    funext fun a => Fin.ext (by match a with | ⟨0, _⟩ => rfl | ⟨1, _⟩ => rfl | ⟨2, _⟩ => rfl)
  have eb : idx_main_v32 (idx_main_v33 (ix3 b r o)) = ix1 o :=
    funext fun a => Fin.ext (by match a with | ⟨0, _⟩ => rfl)
  rw [val_main_v34_apply, val_main_v31_apply, val_main_v33_apply, val_main_v32_apply, eb]
  show (∑ k : Fin 512, _) + x6 (ix1 o) = (∑ j : Fin 512, _) + x6 (ix1 o)
  refine congrArg (· + x6 (ix1 o)) (Finset.sum_congr rfl fun j _ => ?_)
  rw [el j, er j, normadj_at, proj_at]

end Cert.ReferenceIdeal.RefValue

end
-- ==== Proof.lean ====
/-
  A three-stage graph layer: pairwise edge scores through a two-layer perceptron and the logistic function (the
  adjacency), the adjacency normalised by the inverse square roots of its row sums, and the normalised adjacency
  applied to the linearly projected node features, plus a bias. The kernel program computes the adjacency block by
  block in one pallas_call, the degree and its inverse square root on the host, the projection in a second pallas_call
  and the aggregation in a third; the reference computes the same by forty host operations over the full
  [8, 512, 512, 128] difference tensor.

  At the ideal instance both are the specification's functions of the seven arguments (Proof/Spec.lean): every
  operation is the exact one, a change of float format is the identity, the kernel's logistic operation IS
  1 / (1 + exp (−x)), and each program applies the same sums and products in the same order, so the two sides meet
  with no law of the extended reals beyond re-indexing finite sums (tilings of the arrays into blocks; the flattening
  of a pair of rows into one row of a [16384, 128] operand). The precondition (finite inputs) is not used.

  The three frames: each program terminates from any memory, nothing faulting, its arguments unchanged — for the two
  kernel programs by the run of their five items (Proof/K/Run.lean, Proof/KI/Run.lean: no item writes an argument),
  for the reference by its run read back. The idealization rewrote no operation, so `preserves` is `True`.
-/
import proofs.«116299_j17961553231914_1_alg».proof.Defs
import proofs.«116299_j17961553231914_1_alg».proof.Proof.Gen.Kernel
import proofs.«116299_j17961553231914_1_alg».proof.Proof.Gen.Kernel.Skeleton
import proofs.«116299_j17961553231914_1_alg».proof.Proof.Gen.Kernel.Launch
import proofs.«116299_j17961553231914_1_alg».proof.Proof.Gen.Kernel.Regions
import proofs.«116299_j17961553231914_1_alg».proof.Proof.Gen.Kernel.Points
import proofs.«116299_j17961553231914_1_alg».proof.Proof.Gen.KernelIdeal
import proofs.«116299_j17961553231914_1_alg».proof.Proof.Gen.KernelIdeal.Skeleton
import proofs.«116299_j17961553231914_1_alg».proof.Proof.Gen.KernelIdeal.Launch
import proofs.«116299_j17961553231914_1_alg».proof.Proof.Gen.KernelIdeal.Regions
import proofs.«116299_j17961553231914_1_alg».proof.Proof.Gen.KernelIdeal.Points
import proofs.«116299_j17961553231914_1_alg».proof.Proof.Gen.ReferenceIdeal
import proofs.«116299_j17961553231914_1_alg».proof.Proof.Gen.Pre_finite_inputs
import proofs.«116299_j17961553231914_1_alg».proof.Proof.Gen.ReferenceIdeal.Run
import proofs.«116299_j17961553231914_1_alg».proof.Proof.Gen.ReferenceIdeal.Read
import proofs.«116299_j17961553231914_1_alg».proof.Proof.K.Run
import proofs.«116299_j17961553231914_1_alg».proof.Proof.KI.Run
import proofs.«116299_j17961553231914_1_alg».proof.Proof.KI.Glue
import proofs.«116299_j17961553231914_1_alg».proof.Proof.Ref
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates and leaves its seven arguments as launched: they are unscoped buffers
    that no host stretch writes and no pallas_call changes. -/
theorem frame_k [Cert.Kernel.Facts] [Cert.Pre_finite_inputs.Facts] : Cert.frame_Kernel := fun m ρ _ =>
  (θ_run Cert.Kernel.defs _ _).mono (fun r h c =>
    ⟨(h c _ (Cert.Kernel.Hand.mem_uc Cert.Kernel.main_arg0 (by decide))).trans (Cert.Kernel.Hand.W5_kept m c Cert.Kernel.main_arg0 (by decide) (by decide) (by decide) (by decide) (by decide)),
     (h c _ (Cert.Kernel.Hand.mem_uc Cert.Kernel.main_arg1 (by decide))).trans (Cert.Kernel.Hand.W5_kept m c Cert.Kernel.main_arg1 (by decide) (by decide) (by decide) (by decide) (by decide)),
     (h c _ (Cert.Kernel.Hand.mem_uc Cert.Kernel.main_arg2 (by decide))).trans (Cert.Kernel.Hand.W5_kept m c Cert.Kernel.main_arg2 (by decide) (by decide) (by decide) (by decide) (by decide)),
     (h c _ (Cert.Kernel.Hand.mem_uc Cert.Kernel.main_arg3 (by decide))).trans (Cert.Kernel.Hand.W5_kept m c Cert.Kernel.main_arg3 (by decide) (by decide) (by decide) (by decide) (by decide)),
     (h c _ (Cert.Kernel.Hand.mem_uc Cert.Kernel.main_arg4 (by decide))).trans (Cert.Kernel.Hand.W5_kept m c Cert.Kernel.main_arg4 (by decide) (by decide) (by decide) (by decide) (by decide)),
     (h c _ (Cert.Kernel.Hand.mem_uc Cert.Kernel.main_arg5 (by decide))).trans (Cert.Kernel.Hand.W5_kept m c Cert.Kernel.main_arg5 (by decide) (by decide) (by decide) (by decide) (by decide)),
     (h c _ (Cert.Kernel.Hand.mem_uc Cert.Kernel.main_arg6 (by decide))).trans (Cert.Kernel.Hand.W5_kept m c Cert.Kernel.main_arg6 (by decide) (by decide) (by decide) (by decide) (by decide))⟩)
    (Cert.Kernel.Hand.run_all (F := Bits) m ρ)

/-- The idealized kernel program's run with its two results named: the output and the adjacency are the
    specification's functions of the arguments, and the arguments are unchanged. -/
theorem run_ki [Cert.KernelIdeal.Facts] (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v10)
            = (Cert.Spec.outS (m ((c.tc : Thread _ Cert.KernelIdeal.τ).loc Cert.KernelIdeal.main_arg0)) (m ((c.tc : Thread _ Cert.KernelIdeal.τ).loc Cert.KernelIdeal.main_arg1))
                (m ((c.tc : Thread _ Cert.KernelIdeal.τ).loc Cert.KernelIdeal.main_arg2)) (m ((c.tc : Thread _ Cert.KernelIdeal.τ).loc Cert.KernelIdeal.main_arg3))
                (m ((c.tc : Thread _ Cert.KernelIdeal.τ).loc Cert.KernelIdeal.main_arg4)) (m ((c.tc : Thread _ Cert.KernelIdeal.τ).loc Cert.KernelIdeal.main_arg5))
                (m ((c.tc : Thread _ Cert.KernelIdeal.τ).loc Cert.KernelIdeal.main_arg6)) : Cert.KernelIdeal.S8x512x128.Idx → EReal)
        ∧ r.2.mem ((c.tc : Thread Cert.KernelIdeal.nD Cert.KernelIdeal.τ).loc Cert.KernelIdeal.main_v4)
            = (Cert.Spec.adjS (m ((c.tc : Thread _ Cert.KernelIdeal.τ).loc Cert.KernelIdeal.main_arg0)) (m ((c.tc : Thread _ Cert.KernelIdeal.τ).loc Cert.KernelIdeal.main_arg1))
                (m ((c.tc : Thread _ Cert.KernelIdeal.τ).loc Cert.KernelIdeal.main_arg2)) (m ((c.tc : Thread _ Cert.KernelIdeal.τ).loc Cert.KernelIdeal.main_arg3))
                (m ((c.tc : Thread _ Cert.KernelIdeal.τ).loc Cert.KernelIdeal.main_arg4)) : Cert.KernelIdeal.S8x512x512.Idx → EReal)
        ∧ r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1)
        ∧ r.2.mem ((c.tc : Thread _ Cert.KernelIdeal.τ).loc Cert.KernelIdeal.main_arg2) = m ((c.tc : Thread _ Cert.KernelIdeal.τ).loc Cert.KernelIdeal.main_arg2)
        ∧ r.2.mem ((c.tc : Thread _ Cert.KernelIdeal.τ).loc Cert.KernelIdeal.main_arg3) = m ((c.tc : Thread _ Cert.KernelIdeal.τ).loc Cert.KernelIdeal.main_arg3)
        ∧ r.2.mem ((c.tc : Thread _ Cert.KernelIdeal.τ).loc Cert.KernelIdeal.main_arg4) = m ((c.tc : Thread _ Cert.KernelIdeal.τ).loc Cert.KernelIdeal.main_arg4)
        ∧ r.2.mem ((c.tc : Thread _ Cert.KernelIdeal.τ).loc Cert.KernelIdeal.main_arg5) = m ((c.tc : Thread _ Cert.KernelIdeal.τ).loc Cert.KernelIdeal.main_arg5)
        ∧ r.2.mem ((c.tc : Thread _ Cert.KernelIdeal.τ).loc Cert.KernelIdeal.main_arg6) = m ((c.tc : Thread _ Cert.KernelIdeal.τ).loc Cert.KernelIdeal.main_arg6)) :=
  (θ_run Cert.KernelIdeal.defs _ _).mono (fun r h c =>
    ⟨(h c _ (Cert.KernelIdeal.Hand.mem_uc Cert.KernelIdeal.main_v10 (by decide))).trans (Cert.KernelIdeal.Hand.kernel_out m c),
     (h c _ (Cert.KernelIdeal.Hand.mem_uc Cert.KernelIdeal.main_v4 (by decide))).trans (Cert.KernelIdeal.Hand.kernel_adj m c),
     (h c _ (Cert.KernelIdeal.Hand.mem_uc Cert.KernelIdeal.main_arg0 (by decide))).trans (Cert.KernelIdeal.Hand.W5_kept m c Cert.KernelIdeal.main_arg0 (by decide) (by decide) (by decide) (by decide) (by decide)),
     (h c _ (Cert.KernelIdeal.Hand.mem_uc Cert.KernelIdeal.main_arg1 (by decide))).trans (Cert.KernelIdeal.Hand.W5_kept m c Cert.KernelIdeal.main_arg1 (by decide) (by decide) (by decide) (by decide) (by decide)),
     (h c _ (Cert.KernelIdeal.Hand.mem_uc Cert.KernelIdeal.main_arg2 (by decide))).trans (Cert.KernelIdeal.Hand.W5_kept m c Cert.KernelIdeal.main_arg2 (by decide) (by decide) (by decide) (by decide) (by decide)),
     (h c _ (Cert.KernelIdeal.Hand.mem_uc Cert.KernelIdeal.main_arg3 (by decide))).trans (Cert.KernelIdeal.Hand.W5_kept m c Cert.KernelIdeal.main_arg3 (by decide) (by decide) (by decide) (by decide) (by decide)),
     (h c _ (Cert.KernelIdeal.Hand.mem_uc Cert.KernelIdeal.main_arg4 (by decide))).trans (Cert.KernelIdeal.Hand.W5_kept m c Cert.KernelIdeal.main_arg4 (by decide) (by decide) (by decide) (by decide) (by decide)),
     (h c _ (Cert.KernelIdeal.Hand.mem_uc Cert.KernelIdeal.main_arg5 (by decide))).trans (Cert.KernelIdeal.Hand.W5_kept m c Cert.KernelIdeal.main_arg5 (by decide) (by decide) (by decide) (by decide) (by decide)),
     (h c _ (Cert.KernelIdeal.Hand.mem_uc Cert.KernelIdeal.main_arg6 (by decide))).trans (Cert.KernelIdeal.Hand.W5_kept m c Cert.KernelIdeal.main_arg6 (by decide) (by decide) (by decide) (by decide) (by decide))⟩)
    (Cert.KernelIdeal.Hand.run_all (F := Ideal) m ρ)

theorem frame_ki [Cert.KernelIdeal.Facts] [Cert.Pre_finite_inputs.Facts] : Cert.frame_KernelIdeal := fun m ρ _ =>
  (θ_run Cert.KernelIdeal.defs _ _).mono (fun _ h c => (h c).2.2) (run_ki m ρ)

/-- The reference's frame: its run read back, the results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- From memories agreeing on the arguments both idealized programs end with the specification's output and
    adjacency of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, run_ki m ρ, ?_⟩
  refine (θ_run Cert.ReferenceIdeal.defs _ _).mono (fun r h c => ⟨?_, ?_, (h c).2.2⟩)
    (Cert.ReferenceIdeal.Value.run (F := Ideal) m' ρ')
  · refine (h c).1.trans ((Cert.ReferenceIdeal.Read.val_main_v34_eq m' c).trans ?_)
    rw [Cert.ReferenceIdeal.RefValue.ref_out, (hagree c).1, (hagree c).2.1, (hagree c).2.2.1, (hagree c).2.2.2.1,
      (hagree c).2.2.2.2.1, (hagree c).2.2.2.2.2.1, (hagree c).2.2.2.2.2.2]
  · refine (h c).2.1.trans ((Cert.ReferenceIdeal.Read.val_main_v21_eq _ _ _ _ _).trans ?_)
    rw [Cert.ReferenceIdeal.RefValue.ref_adj, (hagree c).1, (hagree c).2.1, (hagree c).2.2.1, (hagree c).2.2.2.1,
      (hagree c).2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
